-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1x441000 : Shape := ⟨3, ![32, 1, 441000]⟩
abbrev S2049x4096 : Shape := ⟨2, ![2049, 4096]⟩
abbrev S_ : Shape := ⟨0, ![]⟩

class Facts : Prop where
  bcast_S_S32x1x441000 : S_.BroadcastsInDim S32x1x441000 (![] : Fin 0 → Fin S32x1x441000.rank)
  reducesTo_S32x1x441000_S_d0_1_2 : S32x1x441000.ReducesTo [0, 1, 2] S_
  h_S_ : 0 < S_.numel
  bcast_S_S2049x4096 : S_.BroadcastsInDim S2049x4096 (![] : Fin 0 → Fin S2049x4096.rank)
  reducesTo_S2049x4096_S_d0_1 : S2049x4096.ReducesTo [0, 1] S_

variable [Facts]

def fn {F : FTy → Type} [FloatOps F] (main_arg0 : FVec F S32x1x441000 .f32) (main_arg1 : FVec F S2049x4096 .f32) (main_arg2 : FVec F S2049x4096 .f32) : IVec S_ 1 :=
  let main_v0 : FVec F S32x1x441000 .f32 := Host.absf main_arg0
  let main_cst : FVec F S_ .f32 := constant S_ .f32 0x7F800000#32
  let main_v1 : FVec F S32x1x441000 .f32 := broadcastInDim S32x1x441000 ![] bcast_S_S32x1x441000 main_cst
  let main_v2 : IVec S32x1x441000 1 := cmpf .olt main_v0 main_v1
  let main_c : IVec S_ 1 := constantI S_ 1 1#1
  let main_v3 : IVec S_ 1 := (fun x v => Host.reduce IntOp.andi x v reducesTo_S32x1x441000_S_d0_1_2 h_S_) main_v2 main_c
  let main_v4 : FVec F S2049x4096 .f32 := Host.absf main_arg1
  let main_cst_0 : FVec F S_ .f32 := constant S_ .f32 0x7F800000#32
  let main_v5 : FVec F S2049x4096 .f32 := broadcastInDim S2049x4096 ![] bcast_S_S2049x4096 main_cst_0
  let main_v6 : IVec S2049x4096 1 := cmpf .olt main_v4 main_v5
  let main_c_1 : IVec S_ 1 := constantI S_ 1 1#1
  let main_v7 : IVec S_ 1 := (fun x v => Host.reduce IntOp.andi x v reducesTo_S2049x4096_S_d0_1 h_S_) main_v6 main_c_1
  let main_v8 : IVec S_ 1 := andi main_v3 main_v7
  let main_v9 : FVec F S2049x4096 .f32 := Host.absf main_arg2
  let main_cst_2 : FVec F S_ .f32 := constant S_ .f32 0x7F800000#32
  let main_v10 : FVec F S2049x4096 .f32 := broadcastInDim S2049x4096 ![] bcast_S_S2049x4096 main_cst_2
  let main_v11 : IVec S2049x4096 1 := cmpf .olt main_v9 main_v10
  let main_c_3 : IVec S_ 1 := constantI S_ 1 1#1
  let main_v12 : IVec S_ 1 := (fun x v => Host.reduce IntOp.andi x v reducesTo_S2049x4096_S_d0_1 h_S_) main_v11 main_c_3
  let main_v13 : IVec S_ 1 := andi main_v8 main_v12
  main_v13
-- ==== Kernel.lean ====
abbrev S32x1x441000 : Shape := ⟨3, ![32, 1, 441000]⟩
abbrev S2049x4096 : Shape := ⟨2, ![2049, 4096]⟩
abbrev S_ : Shape := ⟨0, ![]⟩
abbrev S32x1x1 : Shape := ⟨3, ![32, 1, 1]⟩
abbrev S32x1x2048 : Shape := ⟨3, ![32, 1, 2048]⟩
abbrev S32x1x443048 : Shape := ⟨3, ![32, 1, 443048]⟩
abbrev S32x1x445096 : Shape := ⟨3, ![32, 1, 445096]⟩
abbrev S431 : Shape := ⟨1, ![431]⟩
abbrev S431x1 : Shape := ⟨2, ![431, 1]⟩
abbrev S4096 : Shape := ⟨1, ![4096]⟩
abbrev S1x4096 : Shape := ⟨2, ![1, 4096]⟩
abbrev S431x4096 : Shape := ⟨2, ![431, 4096]⟩
abbrev S32x445096 : Shape := ⟨2, ![32, 445096]⟩
abbrev S431x4096x1 : Shape := ⟨3, ![431, 4096, 1]⟩
abbrev S32x431x4096 : Shape := ⟨3, ![32, 431, 4096]⟩
abbrev S13792x4096 : Shape := ⟨2, ![13792, 4096]⟩
abbrev S13824x4096 : Shape := ⟨2, ![13824, 4096]⟩
abbrev S2560x4096 : Shape := ⟨2, ![2560, 4096]⟩
abbrev S13824x2560 : Shape := ⟨2, ![13824, 2560]⟩
abbrev S512x4096 : Shape := ⟨2, ![512, 4096]⟩
abbrev S512x512 : Shape := ⟨2, ![512, 512]⟩
abbrev S13792x2049 : Shape := ⟨2, ![13792, 2049]⟩
abbrev S32x431x2049 : Shape := ⟨3, ![32, 431, 2049]⟩
abbrev S32x2049x431 : Shape := ⟨3, ![32, 2049, 431]⟩
abbrev S32x2049x431x1 : Shape := ⟨4, ![32, 2049, 431, 1]⟩
abbrev S32x2049x431x2 : Shape := ⟨4, ![32, 2049, 431, 2]⟩

abbrev nBuf : Space → Nat
  | .hbm => 56
  | .vmem => 10
  | .smem => 0
  | _ => 0

abbrev bufTy : (tb : Table) → Fin (tcTables nBuf tb) → BufTy
  | .hbm, ⟨0, _⟩ => ⟨S32x1x441000, .f32⟩
  | .hbm, ⟨1, _⟩ => ⟨S2049x4096, .f32⟩
  | .hbm, ⟨2, _⟩ => ⟨S2049x4096, .f32⟩
  | .hbm, ⟨3, _⟩ => ⟨S_, .i32⟩
  | .hbm, ⟨4, _⟩ => ⟨S32x1x1, .f32⟩
  | .hbm, ⟨5, _⟩ => ⟨S32x1x2048, .f32⟩
  | .hbm, ⟨6, _⟩ => ⟨S32x1x2048, .f32⟩
  | .hbm, ⟨7, _⟩ => ⟨S32x1x443048, .f32⟩
  | .hbm, ⟨8, _⟩ => ⟨S32x1x1, .f32⟩
  | .hbm, ⟨9, _⟩ => ⟨S32x1x2048, .f32⟩
  | .hbm, ⟨10, _⟩ => ⟨S32x1x2048, .f32⟩
  | .hbm, ⟨11, _⟩ => ⟨S32x1x445096, .f32⟩
  | .hbm, ⟨12, _⟩ => ⟨S431, .i32⟩
  | .hbm, ⟨13, _⟩ => ⟨S431x1, .i32⟩
  | .hbm, ⟨14, _⟩ => ⟨S_, .i32⟩
  | .hbm, ⟨15, _⟩ => ⟨S431x1, .i32⟩
  | .hbm, ⟨16, _⟩ => ⟨S431x1, .i32⟩
  | .hbm, ⟨17, _⟩ => ⟨S4096, .i32⟩
  | .hbm, ⟨18, _⟩ => ⟨S1x4096, .i32⟩
  | .hbm, ⟨19, _⟩ => ⟨S431x4096, .i32⟩
  | .hbm, ⟨20, _⟩ => ⟨S431x4096, .i32⟩
  | .hbm, ⟨21, _⟩ => ⟨S431x4096, .i32⟩
  | .hbm, ⟨22, _⟩ => ⟨S32x445096, .f32⟩
  | .hbm, ⟨23, _⟩ => ⟨S_, .i32⟩
  | .hbm, ⟨24, _⟩ => ⟨S431x4096, .i32⟩
  | .hbm, ⟨25, _⟩ => ⟨S431x4096, .i1⟩
  | .hbm, ⟨26, _⟩ => ⟨S_, .i32⟩
  | .hbm, ⟨27, _⟩ => ⟨S431x4096, .i32⟩
  | .hbm, ⟨28, _⟩ => ⟨S431x4096, .i32⟩
  | .hbm, ⟨29, _⟩ => ⟨S431x4096, .i32⟩
  | .hbm, ⟨30, _⟩ => ⟨S431x4096x1, .i32⟩
  | .hbm, ⟨31, _⟩ => ⟨S32x431x4096, .f32⟩
  | .hbm, ⟨32, _⟩ => ⟨S13792x4096, .f32⟩
  | .hbm, ⟨33, _⟩ => ⟨S_, .i32⟩
  | .hbm, ⟨34, _⟩ => ⟨S_, .f32⟩
  | .hbm, ⟨35, _⟩ => ⟨S13824x4096, .f32⟩
  | .hbm, ⟨36, _⟩ => ⟨S_, .i32⟩
  | .hbm, ⟨37, _⟩ => ⟨S_, .f32⟩
  | .hbm, ⟨38, _⟩ => ⟨S2560x4096, .f32⟩
  | .hbm, ⟨39, _⟩ => ⟨S_, .i32⟩
  | .hbm, ⟨40, _⟩ => ⟨S_, .f32⟩
  | .hbm, ⟨41, _⟩ => ⟨S2560x4096, .f32⟩
  | .hbm, ⟨42, _⟩ => ⟨S13824x4096, .bf16⟩
  | .hbm, ⟨43, _⟩ => ⟨S2560x4096, .bf16⟩
  | .hbm, ⟨44, _⟩ => ⟨S2560x4096, .bf16⟩
  | .hbm, ⟨45, _⟩ => ⟨S13824x2560, .f32⟩
  | .hbm, ⟨46, _⟩ => ⟨S13824x2560, .f32⟩
  | .hbm, ⟨47, _⟩ => ⟨S13792x2049, .f32⟩
  | .hbm, ⟨48, _⟩ => ⟨S32x431x2049, .f32⟩
  | .hbm, ⟨49, _⟩ => ⟨S32x2049x431, .f32⟩
  | .hbm, ⟨50, _⟩ => ⟨S13792x2049, .f32⟩
  | .hbm, ⟨51, _⟩ => ⟨S32x431x2049, .f32⟩
  | .hbm, ⟨52, _⟩ => ⟨S32x2049x431, .f32⟩
  | .hbm, ⟨53, _⟩ => ⟨S32x2049x431x1, .f32⟩
  | .hbm, ⟨54, _⟩ => ⟨S32x2049x431x1, .f32⟩
  | .hbm, ⟨55, _⟩ => ⟨S32x2049x431x2, .f32⟩
  | .local _ .vmem, ⟨0, _⟩ => ⟨S512x4096, .bf16⟩
  | .local _ .vmem, ⟨1, _⟩ => ⟨S512x4096, .bf16⟩
  | .local _ .vmem, ⟨2, _⟩ => ⟨S512x4096, .bf16⟩
  | .local _ .vmem, ⟨3, _⟩ => ⟨S512x4096, .bf16⟩
  | .local _ .vmem, ⟨4, _⟩ => ⟨S512x4096, .bf16⟩
  | .local _ .vmem, ⟨5, _⟩ => ⟨S512x4096, .bf16⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | _, _ => ⟨S32x1x441000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_call1_v0 : Ref sig .tc := ⟨.hbm, 34, rfl⟩
abbrev main_v19 : Ref sig .tc := ⟨.hbm, 35, rfl⟩
abbrev main_c_4 : Ref sig .tc := ⟨.hbm, 36, rfl⟩
abbrev main_call2_v0 : Ref sig .tc := ⟨.hbm, 37, rfl⟩
abbrev main_v20 : Ref sig .tc := ⟨.hbm, 38, rfl⟩
abbrev main_c_5 : Ref sig .tc := ⟨.hbm, 39, rfl⟩
abbrev main_call3_v0 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25_0 : Ref sig .tc := ⟨.hbm, 45, rfl⟩
abbrev main_v25_1 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![5, 27], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  slices_S32x1x441000_S32x1x1_0_0_0 : S32x1x441000.Slices ![0, 0, 0] S32x1x1
  slices_S32x1x441000_S32x1x2048_0_0_1 : S32x1x441000.Slices ![0, 0, 1] S32x1x2048
  concatenates_S32x1x2048_S32x1x441000_S32x1x443048_d2 : Shape.Concatenates [S32x1x2048, S32x1x441000] S32x1x443048 2
  slices_S32x1x443048_S32x1x1_0_0_443047 : S32x1x443048.Slices ![0, 0, 443047] S32x1x1
  slices_S32x1x443048_S32x1x2048_0_0_440999 : S32x1x443048.Slices ![0, 0, 440999] S32x1x2048
  concatenates_S32x1x443048_S32x1x2048_S32x1x445096_d2 : Shape.Concatenates [S32x1x443048, S32x1x2048] S32x1x445096 2
  bcast_S431_S431x1_0 : S431.BroadcastsInDim S431x1 (![0] : Fin 1 → Fin S431x1.rank)
  bcast_S_S431x1 : S_.BroadcastsInDim S431x1 (![] : Fin 0 → Fin S431x1.rank)
  bcast_S4096_S1x4096_1 : S4096.BroadcastsInDim S1x4096 (![1] : Fin 1 → Fin S1x4096.rank)
  bcast_S431x1_S431x4096_0_1 : S431x1.BroadcastsInDim S431x4096 (![0, 1] : Fin 2 → Fin S431x4096.rank)
  bcast_S1x4096_S431x4096_0_1 : S1x4096.BroadcastsInDim S431x4096 (![0, 1] : Fin 2 → Fin S431x4096.rank)
  shapeCasts_S32x1x445096_S32x445096 : S32x1x445096.ShapeCasts S32x445096
  bcast_S_S431x4096 : S_.BroadcastsInDim S431x4096 (![] : Fin 0 → Fin S431x4096.rank)
  bcast_S431x4096_S431x4096x1_0_1 : S431x4096.BroadcastsInDim S431x4096x1 (![0, 1] : Fin 2 → Fin S431x4096x1.rank)
  shapeCasts_S32x431x4096_S13792x4096 : S32x431x4096.ShapeCasts S13792x4096
  pads_S13792x4096_S13824x4096_0320_000 : S13792x4096.Pads (![0, 0] : Fin 2 → Nat) ![32, 0] ![0, 0] S13824x4096
  h_S_ : 0 < S_.numel
  pads_S2049x4096_S2560x4096_05110_000 : S2049x4096.Pads (![0, 0] : Fin 2 → Nat) ![511, 0] ![0, 0] S2560x4096
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S512x512_S512x512_0_0 : ∀ a, (![0, 0] : Fin 2 → Nat) a + S512x512.size a ≤ S512x512.size a
  h_S512x512 : 0 < S512x512.numel
  slices_S13824x2560_S13792x2049_0_0 : S13824x2560.Slices ![0, 0] S13792x2049
  shapeCasts_S13792x2049_S32x431x2049 : S13792x2049.ShapeCasts S32x431x2049
  transposes_S32x431x2049_S32x2049x431_0_2_1 : S32x431x2049.Transposes [0, 2, 1] S32x2049x431
  bcast_S32x2049x431_S32x2049x431x1_0_1_2 : S32x2049x431.BroadcastsInDim S32x2049x431x1 (![0, 1, 2] : Fin 3 → Fin S32x2049x431x1.rank)
  concatenates_S32x2049x431x1_S32x2049x431x1_S32x2049x431x2_d3 : Shape.Concatenates [S32x2049x431x1, S32x2049x431x1] S32x2049x431x2 3
  gather_S32x445096_S431x4096x1_S32x431x4096_0_1_n_n_1_2_321_wf : GatherDims.WF S32x445096 S431x4096x1 S32x431x4096 [0] [1] [] [1] [] 2 ![32, 1]
  dot_S512x4096_S512x4096_S512x512_1_1_0_0_n_n_wf : DotDims.WF S512x4096 S512x4096 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S13824x4096.size a
  hwx0_0 : ∀ i : grid0.Coords, EltTy.bits .bf16 = 32 ∨ (Rect.block (s := S13824x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S2560x4096.size a
  hwx0_1 : ∀ i : grid0.Coords, EltTy.bits .bf16 = 32 ∨ (Rect.block (s := S2560x4096) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S2560x4096.size a
  hwx0_2 : ∀ i : grid0.Coords, EltTy.bits .bf16 = 32 ∨ (Rect.block (s := S2560x4096) S512x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S13824x2560.size a
  hwx0_3 : ∀ i : grid0.Coords, EltTy.bits .f32 = 32 ∨ (Rect.block (s := S13824x2560) S512x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S13824x2560.size a
  hwx0_4 : ∀ i : grid0.Coords, EltTy.bits .f32 = 32 ∨ (Rect.block (s := S13824x2560) S512x512.size (cc0_transform_4 i) (hinb0_4 i)).WholeWords (EltTy.packing .f32)

variable [Facts₀]

def gather_S32x445096_S431x4096x1_S32x431x4096_0_1_n_n_1_2_321 : GatherDims S32x445096 S431x4096x1 S32x431x4096 where
  offsetDims := [0]
  collapsedSliceDims := [1]
  operandBatchingDims := []
  startIndicesBatchingDims := []
  startIndexMap := [1]
  indexVectorDim := 2
  sliceSizes := ![32, 1]
  wf := gather_S32x445096_S431x4096x1_S32x431x4096_0_1_n_n_1_2_321_wf
def dot_S512x4096_S512x4096_S512x512_1_1_0_0_n_n : DotDims S512x4096 S512x4096 S512x512 where
  lhsContracting := [1]
  rhsContracting := [1]
  lhsNonContracting := [0]
  rhsNonContracting := [0]
  lhsBatch := []
  rhsBatch := []
  wf := dot_S512x4096_S512x4096_S512x512_1_1_0_0_n_n_wf

abbrev win0_0 : Pipeline.Window sig grid0 :=
  Pipeline.Window.ofSpec (Memref.whole main_v22) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S512x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v25_0) S512x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v25_1) S512x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x1x441000 : Shape := ⟨3, ![32, 1, 441000]⟩
abbrev S2049x4096 : Shape := ⟨2, ![2049, 4096]⟩
abbrev S_ : Shape := ⟨0, ![]⟩
abbrev S32x1x1 : Shape := ⟨3, ![32, 1, 1]⟩
abbrev S32x1x2048 : Shape := ⟨3, ![32, 1, 2048]⟩
abbrev S32x1x443048 : Shape := ⟨3, ![32, 1, 443048]⟩
abbrev S32x1x445096 : Shape := ⟨3, ![32, 1, 445096]⟩
abbrev S431 : Shape := ⟨1, ![431]⟩
abbrev S431x1 : Shape := ⟨2, ![431, 1]⟩
abbrev S4096 : Shape := ⟨1, ![4096]⟩
abbrev S1x4096 : Shape := ⟨2, ![1, 4096]⟩
abbrev S431x4096 : Shape := ⟨2, ![431, 4096]⟩
abbrev S32x445096 : Shape := ⟨2, ![32, 445096]⟩
abbrev S431x4096x1 : Shape := ⟨3, ![431, 4096, 1]⟩
abbrev S32x431x4096 : Shape := ⟨3, ![32, 431, 4096]⟩
abbrev S2049x32x431 : Shape := ⟨3, ![2049, 32, 431]⟩
abbrev S32x2049x431 : Shape := ⟨3, ![32, 2049, 431]⟩
abbrev S32x2049x431x1 : Shape := ⟨4, ![32, 2049, 431, 1]⟩
abbrev S32x2049x431x2 : Shape := ⟨4, ![32, 2049, 431, 2]⟩

abbrev nBuf : Space → Nat
  | .hbm => 39
  | .vmem => 0
  | .smem => 0
  | _ => 0

abbrev bufTy : (tb : Table) → Fin (tcTables nBuf tb) → BufTy
  | .hbm, ⟨0, _⟩ => ⟨S32x1x441000, .f32⟩
  | .hbm, ⟨1, _⟩ => ⟨S2049x4096, .f32⟩
  | .hbm, ⟨2, _⟩ => ⟨S2049x4096, .f32⟩
  | .hbm, ⟨3, _⟩ => ⟨S_, .i32⟩
  | .hbm, ⟨4, _⟩ => ⟨S32x1x1, .f32⟩
  | .hbm, ⟨5, _⟩ => ⟨S32x1x2048, .f32⟩
  | .hbm, ⟨6, _⟩ => ⟨S32x1x2048, .f32⟩
  | .hbm, ⟨7, _⟩ => ⟨S32x1x443048, .f32⟩
  | .hbm, ⟨8, _⟩ => ⟨S32x1x1, .f32⟩
  | .hbm, ⟨9, _⟩ => ⟨S32x1x2048, .f32⟩
  | .hbm, ⟨10, _⟩ => ⟨S32x1x2048, .f32⟩
  | .hbm, ⟨11, _⟩ => ⟨S32x1x445096, .f32⟩
  | .hbm, ⟨12, _⟩ => ⟨S431, .i32⟩
  | .hbm, ⟨13, _⟩ => ⟨S431x1, .i32⟩
  | .hbm, ⟨14, _⟩ => ⟨S_, .i32⟩
  | .hbm, ⟨15, _⟩ => ⟨S431x1, .i32⟩
  | .hbm, ⟨16, _⟩ => ⟨S431x1, .i32⟩
  | .hbm, ⟨17, _⟩ => ⟨S4096, .i32⟩
  | .hbm, ⟨18, _⟩ => ⟨S1x4096, .i32⟩
  | .hbm, ⟨19, _⟩ => ⟨S431x4096, .i32⟩
  | .hbm, ⟨20, _⟩ => ⟨S431x4096, .i32⟩
  | .hbm, ⟨21, _⟩ => ⟨S431x4096, .i32⟩
  | .hbm, ⟨22, _⟩ => ⟨S32x445096, .f32⟩
  | .hbm, ⟨23, _⟩ => ⟨S_, .i32⟩
  | .hbm, ⟨24, _⟩ => ⟨S431x4096, .i32⟩
  | .hbm, ⟨25, _⟩ => ⟨S431x4096, .i1⟩
  | .hbm, ⟨26, _⟩ => ⟨S_, .i32⟩
  | .hbm, ⟨27, _⟩ => ⟨S431x4096, .i32⟩
  | .hbm, ⟨28, _⟩ => ⟨S431x4096, .i32⟩
  | .hbm, ⟨29, _⟩ => ⟨S431x4096, .i32⟩
  | .hbm, ⟨30, _⟩ => ⟨S431x4096x1, .i32⟩
  | .hbm, ⟨31, _⟩ => ⟨S32x431x4096, .f32⟩
  | .hbm, ⟨32, _⟩ => ⟨S2049x32x431, .f32⟩
  | .hbm, ⟨33, _⟩ => ⟨S32x2049x431, .f32⟩
  | .hbm, ⟨34, _⟩ => ⟨S2049x32x431, .f32⟩
  | .hbm, ⟨35, _⟩ => ⟨S32x2049x431, .f32⟩
  | .hbm, ⟨36, _⟩ => ⟨S32x2049x431x1, .f32⟩
  | .hbm, ⟨37, _⟩ => ⟨S32x2049x431x1, .f32⟩
  | .hbm, ⟨38, _⟩ => ⟨S32x2049x431x2, .f32⟩
  | _, _ => ⟨S32x1x441000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]

class Facts₀ : Prop where
  slices_S32x1x441000_S32x1x1_0_0_0 : S32x1x441000.Slices ![0, 0, 0] S32x1x1
  slices_S32x1x441000_S32x1x2048_0_0_1 : S32x1x441000.Slices ![0, 0, 1] S32x1x2048
  concatenates_S32x1x2048_S32x1x441000_S32x1x443048_d2 : Shape.Concatenates [S32x1x2048, S32x1x441000] S32x1x443048 2
  slices_S32x1x443048_S32x1x1_0_0_443047 : S32x1x443048.Slices ![0, 0, 443047] S32x1x1
  slices_S32x1x443048_S32x1x2048_0_0_440999 : S32x1x443048.Slices ![0, 0, 440999] S32x1x2048
  concatenates_S32x1x443048_S32x1x2048_S32x1x445096_d2 : Shape.Concatenates [S32x1x443048, S32x1x2048] S32x1x445096 2
  bcast_S431_S431x1_0 : S431.BroadcastsInDim S431x1 (![0] : Fin 1 → Fin S431x1.rank)
  bcast_S_S431x1 : S_.BroadcastsInDim S431x1 (![] : Fin 0 → Fin S431x1.rank)
  bcast_S4096_S1x4096_1 : S4096.BroadcastsInDim S1x4096 (![1] : Fin 1 → Fin S1x4096.rank)
  bcast_S431x1_S431x4096_0_1 : S431x1.BroadcastsInDim S431x4096 (![0, 1] : Fin 2 → Fin S431x4096.rank)
  bcast_S1x4096_S431x4096_0_1 : S1x4096.BroadcastsInDim S431x4096 (![0, 1] : Fin 2 → Fin S431x4096.rank)
  shapeCasts_S32x1x445096_S32x445096 : S32x1x445096.ShapeCasts S32x445096
  bcast_S_S431x4096 : S_.BroadcastsInDim S431x4096 (![] : Fin 0 → Fin S431x4096.rank)
  bcast_S431x4096_S431x4096x1_0_1 : S431x4096.BroadcastsInDim S431x4096x1 (![0, 1] : Fin 2 → Fin S431x4096x1.rank)
  transposes_S2049x32x431_S32x2049x431_1_0_2 : S2049x32x431.Transposes [1, 0, 2] S32x2049x431
  bcast_S32x2049x431_S32x2049x431x1_0_1_2 : S32x2049x431.BroadcastsInDim S32x2049x431x1 (![0, 1, 2] : Fin 3 → Fin S32x2049x431x1.rank)
  concatenates_S32x2049x431x1_S32x2049x431x1_S32x2049x431x2_d3 : Shape.Concatenates [S32x2049x431x1, S32x2049x431x1] S32x2049x431x2 3
  gather_S32x445096_S431x4096x1_S32x431x4096_0_1_n_n_1_2_321_wf : GatherDims.WF S32x445096 S431x4096x1 S32x431x4096 [0] [1] [] [1] [] 2 ![32, 1]
  dot_S2049x4096_S32x431x4096_S2049x32x431_1_2_0_01_n_n_wf : DotDims.WF S2049x4096 S32x431x4096 S2049x32x431 [1] [2] [0] [0, 1] [] []

variable [Facts₀]

def gather_S32x445096_S431x4096x1_S32x431x4096_0_1_n_n_1_2_321 : GatherDims S32x445096 S431x4096x1 S32x431x4096 where
  offsetDims := [0]
  collapsedSliceDims := [1]
  operandBatchingDims := []
  startIndicesBatchingDims := []
  startIndexMap := [1]
  indexVectorDim := 2
  sliceSizes := ![32, 1]
  wf := gather_S32x445096_S431x4096x1_S32x431x4096_0_1_n_n_1_2_321_wf
def dot_S2049x4096_S32x431x4096_S2049x32x431_1_2_0_01_n_n : DotDims S2049x4096 S32x431x4096 S2049x32x431 where
  lhsContracting := [1]
  rhsContracting := [2]
  lhsNonContracting := [0]
  rhsNonContracting := [0, 1]
  lhsBatch := []
  rhsBatch := []
  wf := dot_S2049x4096_S32x431x4096_S2049x32x431_1_2_0_01_n_n_wf

class Facts : Prop extends Facts₀ where

variable [Facts]
-- ==== Proof.Spec.lean ====
/-
  The transform both programs compute, as ONE function of the framed signal and the two analysis matrices.

  The signal is cut into 431 frames of 4096 samples per batch row (`fr b f j`, sample `j` of frame `f` of row `b`); the
  analysis matrices hold one row of 4096 weights per frequency bin (`c k j`, `s k j`, 2049 bins). Entry `(b, k, f, 0)` of the
  result is the inner product of frame `(b, f)` with row `k` of `c`, entry `(b, k, f, 1)` the one with row `k` of `s`:
      spectrum fr c s (b, k, f, 0) = Σ j, fr (b, f, j) * c (k, j)        spectrum fr c s (b, k, f, 1) = Σ j, fr (b, f, j) * s (k, j).
  On the extended reals a finite sum and a product are commutative and associative whatever the operands, so neither the
  order of the two factors nor the way a program tiles the sum matters, and no finiteness of the inputs is used.
-/
import Idealize.ShloMosaic.PureOps.Ideal.Laws
import Idealize.ShloMosaic.Lib.ValueIdx

noncomputable section

namespace Cert.Stft

open Idealize.ShloMosaic Idealize.ShloMosaic.ValueIdx

/-- The inner product of frame `(b, f)` with row `k` of an analysis matrix. -/
def bin (fr : FVec Ideal ⟨3, ![32, 431, 4096]⟩ .f32) (w : FVec Ideal ⟨2, ![2049, 4096]⟩ .f32)
    (b : Fin 32) (k : Fin 2049) (f : Fin 431) : EReal :=
  ∑ j : Fin 4096, fr (ix3 b f j) * w (ix2 k j)

/-- The transform: at `(b, k, f, 0)` the cosine bin, at `(b, k, f, 1)` the sine bin. -/
def spectrum (fr : FVec Ideal ⟨3, ![32, 431, 4096]⟩ .f32) (c s : FVec Ideal ⟨2, ![2049, 4096]⟩ .f32) :
    FVec Ideal ⟨4, ![32, 2049, 431, 2]⟩ .f32 :=
  fun i => if (i 3).val = 0 then bin fr c (i 0) (i 1) (i 2) else bin fr s (i 0) (i 1) (i 2)

/-- The transform at explicit coordinates, cosine part. -/
theorem spectrum_cos (fr : FVec Ideal ⟨3, ![32, 431, 4096]⟩ .f32) (c s : FVec Ideal ⟨2, ![2049, 4096]⟩ .f32)
    (b : Fin 32) (k : Fin 2049) (f : Fin 431) :
    spectrum fr c s (ix4 b k f (0 : Fin 2)) = bin fr c b k f := rfl

/-- The transform at explicit coordinates, sine part. -/
theorem spectrum_sin (fr : FVec Ideal ⟨3, ![32, 431, 4096]⟩ .f32) (c s : FVec Ideal ⟨2, ![2049, 4096]⟩ .f32)
    (b : Fin 32) (k : Fin 2049) (f : Fin 431) :
    spectrum fr c s (ix4 b k f (1 : Fin 2)) = bin fr s b k f := rfl

/-- Every index of the result is one of the two kinds. -/
theorem idx_cases (i : (⟨4, ![32, 2049, 431, 2]⟩ : Shape).Idx) :
    ∃ (b : Fin 32) (k : Fin 2049) (f : Fin 431), i = ix4 b k f (0 : Fin 2) ∨ i = ix4 b k f (1 : Fin 2) := by
  refine ⟨i 0, i 1, i 2, ?_⟩
  have h := eq_ix4 i
  have h3 : (i 3).val < 2 := (i 3).isLt
  rcases Nat.lt_or_ge (i 3).val 1 with h0 | h1
  · left
    have e : i 3 = (0 : Fin 2) := Fin.ext (by show (i 3).val = 0; omega)
    exact h.trans (congrArg (ix4 (i 0) (i 1) (i 2)) e)
  · right
    have e : i 3 = (1 : Fin 2) := Fin.ext (by show (i 3).val = 1; omega)
    exact h.trans (congrArg (ix4 (i 0) (i 1) (i 2)) e)

end Cert.Stft

end
-- ==== Proof.KernelTerms.lean ====
/-
  The kernel program's host operations around its matrix products, named as functions.

  Before the products: the framed signal [32, 431, 4096] is flattened to 13792 rows of 4096 samples and padded with 32 zero rows
  to 13824 = 27 * 512 rows (`paddedFrames`); each analysis matrix [2049, 4096] is padded with 511 zero rows to 2560 = 5 * 512
  rows (`paddedWeights`); both are narrowed to a 16-bit format, which changes no value over the extended reals.
  The products: entry (p, q) of `products A B` is the inner product of row p of A with row q of B.
  After the products: `unpacked R I` drops the padding rows and columns of both product arrays, splits the row index back into
  (batch row, frame), swaps frame and frequency bin, and stacks the two arrays on a new last axis.
-/
import proofs.«137428_j85925115724233_1_alg».proof.Proof.Gen.KernelIdeal
import Idealize.ShloMosaic.Lib.ValueIdx

noncomputable section

namespace Cert.KernelIdeal.Stft

open Idealize.ShloMosaic Idealize.ShloMosaic.ValueIdx Cert.KernelIdeal Cert.KernelIdeal.Gen

variable {F : FTy → Type} [FloatOps F]

/-- The frames as 13792 rows, 32 zero rows appended, in the narrow format. -/
def paddedFrames (fr : FVec F S32x431x4096 .f32) : FVec F S13824x4096 .bf16 :=
  truncf .bf16 (pad S13824x4096 ![0, 0] ![32, 0] ![0, 0] (shapeCast S13792x4096 fr shapeCasts_S32x431x4096_S13792x4096) (sitofp .f32 (constantI S_ 32 0#32)) pads_S13792x4096_S13824x4096_0320_000 h_S_) bitsLt_bf16_f32

/-- An analysis matrix, 511 zero rows appended, in the narrow format. -/
def paddedWeights (w : FVec F S2049x4096 .f32) : FVec F S2560x4096 .bf16 :=
  truncf .bf16 (pad S2560x4096 ![0, 0] ![511, 0] ![0, 0] w (sitofp .f32 (constantI S_ 32 0#32)) pads_S2049x4096_S2560x4096_05110_000 h_S_) bitsLt_bf16_f32

/-- All inner products of a row of `A` with a row of `B`. -/
def products (A : FVec Ideal S13824x4096 .bf16) (B : FVec Ideal S2560x4096 .bf16) : FVec Ideal S13824x2560 .f32 :=
  fun i => ∑ j : Fin 4096, A (ix2 (i 0) j) * B (ix2 (i 1) j)

/-- One product array with its padding dropped, as [batch row, frequency bin, frame, 1]. -/
def unpackedPart (R : FVec F S13824x2560 .f32) : FVec F S32x2049x431x1 .f32 :=
  broadcastInDim S32x2049x431x1 ![0, 1, 2] bcast_S32x2049x431_S32x2049x431x1_0_1_2
    (transpose S32x2049x431 [0, 2, 1]
      (shapeCast S32x431x2049 (extractStridedSlice S13792x2049 ![0, 0] R slices_S13824x2560_S13792x2049_0_0) shapeCasts_S13792x2049_S32x431x2049)
      transposes_S32x431x2049_S32x2049x431_0_2_1)

/-- The two product arrays unpacked and stacked on the last axis. -/
def unpacked (R I : FVec F S13824x2560 .f32) : FVec F S32x2049x431x2 .f32 :=
  concatenate S32x2049x431x2 3 [⟨S32x2049x431x1, unpackedPart R⟩, ⟨S32x2049x431x1, unpackedPart I⟩] concatenates_S32x2049x431x1_S32x2049x431x1_S32x2049x431x2_d3

end Cert.KernelIdeal.Stft

end
-- ==== Proof.LibLeadSumDotT.lean ====
/-
  Two readings at an index, over the extended reals, for kernels that sum a grouped operand over its LEADING axis and
  multiply a row block against the ROWS of a weight block (`x @ W.T`):

  * `sumLead3_apply` / `sumLead2_apply`: a `vector.multi_reduction <add>` over axis 0 of a rank-3 (rank-2) vector,
    read at `(r, k)` (at `q`), is the sum over `g` of the entries `(g, r, k)` (`(g, q)`);
  * `matmulT_apply`: a `tpu.matmul` into the zero accumulator whose dimension numbers contract axis 1 of BOTH operands
    (`DotDims.transposedRhs M K N`: lhs [M, K], rhs [N, K], out [M, N]), read at `(p, q)`, is
    `Σ k : Fin K, lhs (p, k) * rhs (q, k)`. A printed record `dot_S<M>x<K>_S<N>x<K>_S<M>x<N>_1_1_0_0_n_n` unifies with
    `DotDims.transposedRhs M K N` by unfolding, so the lemma applies to the printed payload by `exact` / `refine … .trans`.
-/
import Idealize.ShloMosaic.PureOps.Ideal.Laws
import Idealize.ShloMosaic.Lib.ValueIdx

noncomputable section

namespace Cert.Lib

open Idealize.ShloMosaic Idealize.ShloMosaic.ValueIdx

/-- The sum over the leading axis of a rank-3 vector, read at `(r, k)`: the sum over `g` of the entries `(g, r, k)`. -/
theorem sumLead3_apply {n0 n1 n2 : Nat} (src : FVec Ideal ⟨3, ![n0, n1, n2]⟩ .f32)
    (h : (⟨3, ![n0, n1, n2]⟩ : Shape).Reduces [0] ⟨2, ![n1, n2]⟩) (hφ : FKind.Formats .f32)
    (hacc : (0x00000000#32 : BitVec 32) = FKind.add.neutral .f32 hφ) (r : Fin n1) (k : Fin n2) :
    multiReduction .add [0] ⟨2, ![n1, n2]⟩ src 0x00000000#32 h hφ hacc (ix2 r k) = ∑ g : Fin n0, src (ix3 g r k) := by
  refine (Ideal.multiReduction_add_single src _ h hφ hacc (ix2 r k)).trans ?_
  refine Finset.sum_congr rfl fun g _ => congrArg src ?_
  funext a
  match a with
  | ⟨0, _⟩ => rfl
  | ⟨1, _⟩ => rfl
  | ⟨2, _⟩ => rfl

/-- The sum over the leading axis of a rank-2 vector, read at `q`: the sum over `g` of the entries `(g, q)`. -/
theorem sumLead2_apply {n0 n1 : Nat} (src : FVec Ideal ⟨2, ![n0, n1]⟩ .f32)
    (h : (⟨2, ![n0, n1]⟩ : Shape).Reduces [0] ⟨1, ![n1]⟩) (hφ : FKind.Formats .f32)
    (hacc : (0x00000000#32 : BitVec 32) = FKind.add.neutral .f32 hφ) (q : Fin n1) :
    multiReduction .add [0] ⟨1, ![n1]⟩ src 0x00000000#32 h hφ hacc (ix1 q) = ∑ g : Fin n0, src (ix2 g q) := by
  refine (Ideal.multiReduction_add_single src _ h hφ hacc (ix1 q)).trans ?_
  refine Finset.sum_congr rfl fun g _ => congrArg src ?_
  funext a
  match a with
  | ⟨0, _⟩ => rfl
  | ⟨1, _⟩ => rfl

/-! ## A product that contracts the second axis of both operands -/

/-- The left operand's row coordinate is the output's row. -/
theorem lhsT_0 {M K N : Nat} (j : (⟨2, ![M, N]⟩ : Shape).Idx) (k : (DotDims.transposedRhs M K N).contr.Idx) :
    ((DotDims.transposedRhs M K N).lhsIdx j k 0).val = (j 0).val := rfl
/-- The left operand's column coordinate is the contraction coordinate. -/
theorem lhsT_1 {M K N : Nat} (j : (⟨2, ![M, N]⟩ : Shape).Idx) (k : (DotDims.transposedRhs M K N).contr.Idx) :
    ((DotDims.transposedRhs M K N).lhsIdx j k 1).val = (k ⟨0, Nat.one_pos⟩).val :=
  (DotDims.transposedRhs M K N).lhsIdx_val_of_single rfl j k
/-- The right operand's row coordinate is the output's column. -/
theorem rhsT_0 {M K N : Nat} (j : (⟨2, ![M, N]⟩ : Shape).Idx) (k : (DotDims.transposedRhs M K N).contr.Idx) :
    ((DotDims.transposedRhs M K N).rhsIdx j k 0).val = (j 1).val := rfl
/-- The right operand's column coordinate is the contraction coordinate. -/
theorem rhsT_1 {M K N : Nat} (j : (⟨2, ![M, N]⟩ : Shape).Idx) (k : (DotDims.transposedRhs M K N).contr.Idx) :
    ((DotDims.transposedRhs M K N).rhsIdx j k 1).val = (k ⟨0, Nat.one_pos⟩).val :=
  (DotDims.transposedRhs M K N).rhsIdx_val_of_single rfl j k

/-- Into the zero accumulator, such a product read at `(p, q)` is the sum over `k` of `lhs (p, k) * rhs (q, k)`. -/
theorem matmulT_apply {M K N : Nat} {φ₁ φ₂ : FTy} (lhs : FVec Ideal ⟨2, ![M, K]⟩ φ₁) (rhs : FVec Ideal ⟨2, ![N, K]⟩ φ₂)
    (p : Fin M) (q : Fin N) :
    matmul (DotDims.transposedRhs M K N) none lhs rhs (constant (F := Ideal) ⟨2, ![M, N]⟩ .f32 0x00000000#32) (ix2 p q)
      = ∑ k : Fin K, lhs (ix2 p k) * rhs (ix2 q k) := by
  refine (Ideal.matmul_constant_zero_apply (DotDims.transposedRhs M K N) none lhs rhs (ix2 p q)).trans ?_
  rw [← Equiv.sum_comp (contrEquiv1 (DotDims.transposedRhs M K N) K rfl rfl).symm]
  refine Finset.sum_congr rfl fun k _ => ?_
  have hk := contrEquiv1_symm_val (DotDims.transposedRhs M K N) K rfl rfl k
  have hl : (DotDims.transposedRhs M K N).lhsIdx (ix2 p q) ((contrEquiv1 (DotDims.transposedRhs M K N) K rfl rfl).symm k) = ix2 p k := by
    funext a
    match a with
    | ⟨0, _⟩ => exact Fin.ext (lhsT_0 _ _)
    | ⟨1, _⟩ => exact Fin.ext ((lhsT_1 _ _).trans hk)
  have hr : (DotDims.transposedRhs M K N).rhsIdx (ix2 p q) ((contrEquiv1 (DotDims.transposedRhs M K N) K rfl rfl).symm k) = ix2 q k := by
    funext a
    match a with
    | ⟨0, _⟩ => exact Fin.ext (rhsT_0 _ _)
    | ⟨1, _⟩ => exact Fin.ext ((rhsT_1 _ _).trans hk)
  rw [hl, hr]

end Cert.Lib

end
-- ==== Proof.KernelBlocks.lean ====
/-
  From tiles to the whole product arrays.

  The grid has 5 × 27 points; point (n, r) multiplies the 512-row block r of the padded frames with the 512-row block n of
  each padded matrix, contracting all 4096 columns at once, and writes the 512 × 512 tile (r, n) of each product array.
  A tile's entry (p, q) is therefore the inner product of row 512 r + p of the frames with row 512 n + q of the matrix, which
  is entry (512 r + p, 512 n + q) of ONE whole-array function (`products`); the 27 × 5 tiles fill the [13824, 2560] arrays, so
  after the run each product array IS that function of the two operand arrays.
-/
import proofs.«137428_j85925115724233_1_alg».proof.Proof.Gen.KernelIdeal.Frame
import proofs.«137428_j85925115724233_1_alg».proof.Proof.KernelTerms
import proofs.«137428_j85925115724233_1_alg».proof.Proof.LibLeadSumDotT
import Idealize.ShloMosaic.Lib.Pipeline.Value
import Idealize.ShloMosaic.Lib.Tactic

noncomputable section

open Idealize.ShloMosaic Idealize.ShloMosaic.TcCoe Idealize.ShloMosaic.ValueIdx Idealize.SL.Sem
open Idealize.ShloMosaic.Pipeline (Dat)

namespace Cert.KernelIdeal.Stft

open Cert.KernelIdeal Cert.KernelIdeal.Gen

variable (m : (ℓ : Loc nD τ sig) → Buf (Elt Ideal) ℓ)

theorem hz : (![0, 0] : Fin 2 → Nat) = fun _ => 0 := funext fun a => by fin_cases a <;> rfl

/-- The three operand arrays as the region finds them, and each one's block at a point, at their literal types. -/
abbrev framesArr (c : Dev nD) : FVec Ideal S13824x4096 .bf16 := V m c main_v22
abbrev cosArr (c : Dev nD) : FVec Ideal S2560x4096 .bf16 := V m c main_v23
abbrev sinArr (c : Dev nD) : FVec Ideal S2560x4096 .bf16 := V m c main_v24
abbrev framesBlk (c : Dev nD) (t : Fin cfg0.N) : Vec Ideal S512x4096 .bf16 := iblk m c 0 t
abbrev cosBlk (c : Dev nD) (t : Fin cfg0.N) : Vec Ideal S512x4096 .bf16 := iblk m c 1 t
abbrev sinBlk (c : Dev nD) (t : Fin cfg0.N) : Vec Ideal S512x4096 .bf16 := iblk m c 2 t

/-- One tile of the first product: entry (p, q) is the inner product of row p of the frames' block with row q of the
    matrix's block. -/
theorem tile_apply (x0 x1 : Vec Ideal S512x4096 .bf16) (p q : Fin 512) :
    k0_pay2 x0 x1 (ix2 p q) = ∑ j : Fin 4096, x0 (ix2 p j) * x1 (ix2 q j) := by
  unfold k0_pay2 k0_pay1
  simp only [shapeCast_self]
  exact Cert.Lib.matmulT_apply x0 x1 p q

/-- The same for the second product. -/
theorem tile_apply' (x0 x2 : Vec Ideal S512x4096 .bf16) (p q : Fin 512) :
    k0_pay3 x0 x2 (ix2 p q) = ∑ j : Fin 4096, x0 (ix2 p j) * x2 (ix2 q j) := by
  unfold k0_pay3 k0_pay1
  simp only [shapeCast_self]
  exact Cert.Lib.matmulT_apply x0 x2 p q

/-- The printed index maps, decided over the grid: the frames' block follows the tile's row index, each matrix's block the
    tile's column index, both output windows write the same tile, and the tile indices stay in their ranges. -/
theorem idx_facts : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = win0_3.index t (1 : Fin 2) ∧ win0_2.index t (1 : Fin 2) = 0
    ∧ win0_4.index t (0 : Fin 2) = win0_3.index t (0 : Fin 2) ∧ win0_4.index t (1 : Fin 2) = win0_3.index t (1 : Fin 2)
    ∧ win0_3.index t (0 : Fin 2) ≤ 26 ∧ win0_3.index t (1 : Fin 2) ≤ 4 :=
  (by decide +kernel : ∀ t : Fin grid0.N, _)

/-- Every tile is some point's. -/
theorem idx_onto : ∀ (q0 : Fin 27) (q1 : Fin 5), ∃ t : Fin cfg0.N, win0_3.index t = ![q0.val, q1.val] :=
  (by decide +kernel : ∀ (q0 : Fin 27) (q1 : Fin 5), ∃ t : Fin grid0.N, win0_3.index t = ![q0.val, q1.val])

/-- The frames' block at point `t` is rows `512 r … 512 r + 511` of the padded frames, `r` the tile's row index. -/
theorem rows_apply (c : Dev nD) (t : Fin cfg0.N) (x : S512x4096.Idx) (k : S13824x4096.Idx)
    (hk0 : (k 0).val = win0_3.index t 0 * 512 + (x 0).val) (hk1 : (k 1).val = (x 1).val) :
    framesBlk m c t x = framesArr m c k := by
  obtain ⟨e0, e1, e2, e3, e4, e5, e6, e7, e8, e9⟩ := idx_facts t
  unfold framesBlk iblk
  rw [View.read_apply]
  show V m c main_v22 _ = V m c main_v22 _
  congr 1
  funext a
  apply Fin.ext
  match a with
  | ⟨0, _⟩ => show win0_0.index t 0 * 512 + 1 * (x 0).val = (k 0).val; rw [e0, hk0]; omega
  | ⟨1, _⟩ => show win0_0.index t 1 * 4096 + 1 * (x 1).val = (k 1).val; rw [e1, hk1]; omega

/-- The cosine matrix's block at point `t` is rows `512 n … 512 n + 511` of the padded matrix, `n` the tile's column index. -/
theorem cosRows_apply (c : Dev nD) (t : Fin cfg0.N) (x : S512x4096.Idx) (k : S2560x4096.Idx)
    (hk0 : (k 0).val = win0_3.index t 1 * 512 + (x 0).val) (hk1 : (k 1).val = (x 1).val) :
    cosBlk m c t x = cosArr m c k := by
  obtain ⟨e0, e1, e2, e3, e4, e5, e6, e7, e8, e9⟩ := idx_facts t
  unfold cosBlk iblk
  rw [View.read_apply]
  show V m c main_v23 _ = V m c main_v23 _
  congr 1
  funext a
  apply Fin.ext
  match a with
  | ⟨0, _⟩ => show win0_1.index t 0 * 512 + 1 * (x 0).val = (k 0).val; rw [e2, hk0]; omega
  | ⟨1, _⟩ => show win0_1.index t 1 * 4096 + 1 * (x 1).val = (k 1).val; rw [e3, hk1]; omega

/-- The sine matrix's block at point `t`, likewise. -/
theorem sinRows_apply (c : Dev nD) (t : Fin cfg0.N) (x : S512x4096.Idx) (k : S2560x4096.Idx)
    (hk0 : (k 0).val = win0_3.index t 1 * 512 + (x 0).val) (hk1 : (k 1).val = (x 1).val) :
    sinBlk m c t x = sinArr m c k := by
  obtain ⟨e0, e1, e2, e3, e4, e5, e6, e7, e8, e9⟩ := idx_facts t
  unfold sinBlk iblk
  rw [View.read_apply]
  show V m c main_v24 _ = V m c main_v24 _
  congr 1
  funext a
  apply Fin.ext
  match a with
  | ⟨0, _⟩ => show win0_2.index t 0 * 512 + 1 * (x 0).val = (k 0).val; rw [e4, hk0]; omega
  | ⟨1, _⟩ => show win0_2.index t 1 * 4096 + 1 * (x 1).val = (k 1).val; rw [e5, hk1]; omega

/-! ## Output window 3: the products with the cosine matrix -/

/-- One tile of the products, entry by entry: the tile at point `t`, read at `y`, is the entry of the whole product array
    at the tile's offset plus `y`; each factor's block is read where the tile's row (column) index says. -/
theorem tile3_eq (c : Dev nD) (t : Fin cfg0.N) (y : S512x512.Idx) (i : S13824x2560.Idx)
    (hi0 : (i 0).val = win0_3.index t 0 * 512 + (y 0).val) (hi1 : (i 1).val = win0_3.index t 1 * 512 + (y 1).val) :
    k0_pay2 (framesBlk m c t) (cosBlk m c t) y = products (framesArr m c) (cosArr m c) i := by
  obtain ⟨p, q, rfl⟩ : ∃ (p q : Fin 512), y = ix2 p q := ⟨y 0, y 1, eq_ix2 y⟩
  refine (tile_apply (framesBlk m c t) (cosBlk m c t) p q).trans ?_
  show _ = ∑ j : Fin 4096, framesArr m c (ix2 (i 0) j) * cosArr m c (ix2 (i 1) j)
  refine Finset.sum_congr rfl fun j _ => ?_
  rw [rows_apply m c t (ix2 p j) (ix2 (i 0) j) hi0 rfl, cosRows_apply m c t (ix2 q j) (ix2 (i 1) j) hi1 rfl]

/-- What point `t` writes back through window 3 is block `t` of the whole product array. -/
theorem flushed3_eq (c : Dev nD) (t : Fin cfg0.N) :
    (dats m 0 c).flushed 3 t = ((cfg0.win 3).blk t).view.read (Elt Ideal) (products (framesArr m c) (cosArr m c)) := by
  show (cfg0.win 3).cut (grid0.coords t) ((dats m 0 c).after 3 t) = _
  rw [after0_3]
  unfold out0_3
  rw [View.canon_unit_zero hz]
  simp only [View.ld_unit_zero (S := S512x4096) hz]
  obtain ⟨e0, e1, e2, e3, e4, e5, e6, e7, e8, e9⟩ := idx_facts t
  funext j
  refine tile3_eq m c t j _ ?_ ?_
  · show win0_3.index t (0 : Fin 2) * 512 + 1 * (j 0).val = win0_3.index t 0 * 512 + (j 0).val
    omega
  · show win0_3.index t (1 : Fin 2) * 512 + 1 * (j 1).val = win0_3.index t 1 * 512 + (j 1).val
    omega

/-- An index of the product array lies in point `t`'s block iff each coordinate lies in the block's range. -/
theorem mem_blk3 (t : Fin cfg0.N) (i : S13824x2560.Idx) :
    i ∈ ((cfg0.win 3).blk t).view.set ↔ ∀ a : Fin 2, win0_3.index t a * S512x512.size a ≤ (i a).val ∧ (i a).val < win0_3.index t a * S512x512.size a + S512x512.size a := by
  show i ∈ ((View.whole main_v25_0).slice (win0_3.rect t)).set ↔ _
  rw [View.set_slice_whole, Rect.mem_set_unit]
  exact Iff.rfl

/-- Every entry of the product array lies in some point's block: entry (r, q) in the block of tile (r / 512, q / 512). -/
theorem cover3 (i : S13824x2560.Idx) :
    ∃ t : Fin cfg0.N, (cfg0.win 3).flush t = true ∧ i ∈ ((cfg0.win 3).blk t).view.set := by
  have hi0 : (i 0).val < 13824 := (i 0).isLt
  have hi1 : (i 1).val < 2560 := (i 1).isLt
  obtain ⟨t, ht⟩ := idx_onto ⟨(i 0).val / 512, by omega⟩ ⟨(i 1).val / 512, by omega⟩
  obtain ⟨e0, e1, e2, e3, e4, e5, e6, e7, e8, e9⟩ := idx_facts t
  have q0 : win0_3.index t (0 : Fin 2) = (i 0).val / 512 := congrFun ht 0
  have q1 : win0_3.index t (1 : Fin 2) = (i 1).val / 512 := congrFun ht 1
  refine ⟨t, flush0_3 t, ?_⟩
  rw [mem_blk3]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 512 ≤ (i 1).val ∧ (i 1).val < win0_3.index t (1 : Fin 2) * 512 + 512; omega

/-- The product array after the run: all inner products of a row of the padded frames with a row of the padded matrix. -/
theorem final3 (c : Dev nD) : (dats m 0 c).arrAt 3 cfg0.N = products (framesArr m c) (cosArr m c) :=
  (dats m 0 c).arrAt_eq_of_cover 3 (products (framesArr m c) (cosArr m c)) (fun t _ => flushed3_eq m c t) cover3

/-! ## Output window 4: the products with the sine matrix -/

/-- One tile of the products, entry by entry: the tile at point `t`, read at `y`, is the entry of the whole product array
    at the tile's offset plus `y`; each factor's block is read where the tile's row (column) index says. -/
theorem tile4_eq (c : Dev nD) (t : Fin cfg0.N) (y : S512x512.Idx) (i : S13824x2560.Idx)
    (hi0 : (i 0).val = win0_3.index t 0 * 512 + (y 0).val) (hi1 : (i 1).val = win0_3.index t 1 * 512 + (y 1).val) :
    k0_pay3 (framesBlk m c t) (sinBlk m c t) y = products (framesArr m c) (sinArr m c) i := by
  obtain ⟨p, q, rfl⟩ : ∃ (p q : Fin 512), y = ix2 p q := ⟨y 0, y 1, eq_ix2 y⟩
  refine (tile_apply' (framesBlk m c t) (sinBlk m c t) p q).trans ?_
  show _ = ∑ j : Fin 4096, framesArr m c (ix2 (i 0) j) * sinArr m c (ix2 (i 1) j)
  refine Finset.sum_congr rfl fun j _ => ?_
  rw [rows_apply m c t (ix2 p j) (ix2 (i 0) j) hi0 rfl, sinRows_apply m c t (ix2 q j) (ix2 (i 1) j) hi1 rfl]

/-- What point `t` writes back through window 4 is block `t` of the whole product array. -/
theorem flushed4_eq (c : Dev nD) (t : Fin cfg0.N) :
    (dats m 0 c).flushed 4 t = ((cfg0.win 4).blk t).view.read (Elt Ideal) (products (framesArr m c) (sinArr m c)) := by
  show (cfg0.win 4).cut (grid0.coords t) ((dats m 0 c).after 4 t) = _
  rw [after0_4]
  unfold out0_4
  rw [View.canon_unit_zero hz]
  simp only [View.ld_unit_zero (S := S512x4096) hz]
  obtain ⟨e0, e1, e2, e3, e4, e5, e6, e7, e8, e9⟩ := idx_facts t
  funext j
  refine tile4_eq m c t j _ ?_ ?_
  · show win0_4.index t (0 : Fin 2) * 512 + 1 * (j 0).val = win0_3.index t 0 * 512 + (j 0).val
    rw [e6]; omega
  · show win0_4.index t (1 : Fin 2) * 512 + 1 * (j 1).val = win0_3.index t 1 * 512 + (j 1).val
    rw [e7]; omega

/-- An index of the product array lies in point `t`'s block iff each coordinate lies in the block's range. -/
theorem mem_blk4 (t : Fin cfg0.N) (i : S13824x2560.Idx) :
    i ∈ ((cfg0.win 4).blk t).view.set ↔ ∀ a : Fin 2, win0_4.index t a * S512x512.size a ≤ (i a).val ∧ (i a).val < win0_4.index t a * S512x512.size a + S512x512.size a := by
  show i ∈ ((View.whole main_v25_1).slice (win0_4.rect t)).set ↔ _
  rw [View.set_slice_whole, Rect.mem_set_unit]
  exact Iff.rfl

/-- Every entry of the product array lies in some point's block: entry (r, q) in the block of tile (r / 512, q / 512). -/
theorem cover4 (i : S13824x2560.Idx) :
    ∃ t : Fin cfg0.N, (cfg0.win 4).flush t = true ∧ i ∈ ((cfg0.win 4).blk t).view.set := by
  have hi0 : (i 0).val < 13824 := (i 0).isLt
  have hi1 : (i 1).val < 2560 := (i 1).isLt
  obtain ⟨t, ht⟩ := idx_onto ⟨(i 0).val / 512, by omega⟩ ⟨(i 1).val / 512, by omega⟩
  obtain ⟨e0, e1, e2, e3, e4, e5, e6, e7, e8, e9⟩ := idx_facts t
  have q0 : win0_3.index t (0 : Fin 2) = (i 0).val / 512 := congrFun ht 0
  have q1 : win0_3.index t (1 : Fin 2) = (i 1).val / 512 := congrFun ht 1
  refine ⟨t, flush0_4 t, ?_⟩
  rw [mem_blk4]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 512 ≤ (i 1).val ∧ (i 1).val < win0_4.index t (1 : Fin 2) * 512 + 512; omega

/-- The product array after the run: all inner products of a row of the padded frames with a row of the padded matrix. -/
theorem final4 (c : Dev nD) : (dats m 0 c).arrAt 4 cfg0.N = products (framesArr m c) (sinArr m c) :=
  (dats m 0 c).arrAt_eq_of_cover 4 (products (framesArr m c) (sinArr m c)) (fun t _ => flushed4_eq m c t) cover4

end Cert.KernelIdeal.Stft

end
-- ==== Proof.KernelFrames.lean ====
/-
  The framed signal, as one function of the input signal: what both programs compute before any arithmetic.

  A row of 441000 samples is extended by reflection to 445096 samples: 2048 samples mirrored in front (samples 2048 … 1 of
  the row) and 2048 mirrored behind (samples 440998 … 438951), the end samples themselves not repeated. Frame `f` (of 431)
  is the window of 4096 consecutive samples of the extended row that starts at sample `1024 * f`; the window positions are
  computed as 32-bit integers `1024 * f + j`, a negative position wrapped by the row's length (none is negative), and the
  samples are fetched by one gather over all rows at once.
-/
import proofs.«137428_j85925115724233_1_alg».proof.Proof.Gen.KernelIdeal

noncomputable section

namespace Cert.KernelIdeal.Stft

open Idealize.ShloMosaic Cert.KernelIdeal Cert.KernelIdeal.Gen

variable {F : FTy → Type} [FloatOps F]

/-- The signal with its first 2048 interior samples mirrored in front. -/
def mirroredFront (x : FVec F S32x1x441000 .f32) : FVec F S32x1x443048 .f32 :=
  concatenate S32x1x443048 2 [⟨S32x1x2048, Host.reverse [2] (extractStridedSlice S32x1x2048 ![0, 0, 1] x slices_S32x1x441000_S32x1x2048_0_0_1)⟩, ⟨S32x1x441000, x⟩] concatenates_S32x1x2048_S32x1x441000_S32x1x443048_d2

/-- The signal extended by reflection on both sides. -/
def reflected (x : FVec F S32x1x441000 .f32) : FVec F S32x1x445096 .f32 :=
  concatenate S32x1x445096 2 [⟨S32x1x443048, mirroredFront x⟩, ⟨S32x1x2048, Host.reverse [2] (extractStridedSlice S32x1x2048 ![0, 0, 440999] (mirroredFront x) slices_S32x1x443048_S32x1x2048_0_0_440999)⟩] concatenates_S32x1x443048_S32x1x2048_S32x1x445096_d2

/-- The window positions `1024 * f + j`, as 32-bit integers. -/
def positions : IVec S431x4096 32 :=
  addi (broadcastInDim S431x4096 ![0, 1] bcast_S431x1_S431x4096_0_1 (muli (broadcastInDim S431x1 ![] bcast_S_S431x1 (constantI S_ 32 1024#32)) (broadcastInDim S431x1 ![0] bcast_S431_S431x1_0 (iotaInDim S431 32 0))))
    (broadcastInDim S431x4096 ![0, 1] bcast_S1x4096_S431x4096_0_1 (broadcastInDim S1x4096 ![1] bcast_S4096_S1x4096_1 (iotaInDim S4096 32 0)))

/-- The positions as the gather reads them: a negative one wrapped by the extended row's length, one index per entry. -/
def sampleIdx : IVec S431x4096x1 32 :=
  broadcastInDim S431x4096x1 ![0, 1] bcast_S431x4096_S431x4096x1_0_1
    (select (cmpi .slt positions (broadcastInDim S431x4096 ![] bcast_S_S431x4096 (constantI S_ 32 0#32)))
      (addi positions (broadcastInDim S431x4096 ![] bcast_S_S431x4096 (constantI S_ 32 445096#32))) positions)

/-- The framed signal: entry `(b, f, j)` is sample `1024 * f + j` of row `b` of the reflected signal. -/
def frames (x : FVec F S32x1x441000 .f32) : FVec F S32x431x4096 .f32 :=
  Host.gather gather_S32x445096_S431x4096x1_S32x431x4096_0_1_n_n_1_2_321
    (shapeCast S32x445096 (reflected x) shapeCasts_S32x1x445096_S32x445096) sampleIdx

end Cert.KernelIdeal.Stft

end
-- ==== Proof.KernelPrefix.lean ====
/-
  What the kernel region finds in its three operand arrays: the host lines before it, read back.

  The first operand is the framed signal, flattened, zero-padded to 13824 rows and narrowed (`paddedFrames (frames x)`); the
  second and third are the two analysis matrices, zero-padded to 2560 rows and narrowed (`paddedWeights`).
-/
import proofs.«137428_j85925115724233_1_alg».proof.Proof.Gen.KernelIdeal.Frame
import proofs.«137428_j85925115724233_1_alg».proof.Proof.KernelFrames
import proofs.«137428_j85925115724233_1_alg».proof.Proof.KernelTerms
import Idealize.ShloMosaic.Lib.StableHlo.Run

noncomputable section

open Idealize.ShloMosaic Idealize.ShloMosaic.TcCoe Idealize.SL.Sem Idealize.ShloMosaic.StableHlo

namespace Cert.KernelIdeal.Stft

open Cert.KernelIdeal Cert.KernelIdeal.Gen

variable (m : (ℓ : Loc nD τ sig) → Buf (Elt Ideal) ℓ)

attribute [local irreducible] Host.gather Host.reverse concatenate pad extractStridedSlice in
set_option maxRecDepth 8192 in
set_option maxHeartbeats 1000000 in
/-- The first operand array at the region's entry: the padded, narrowed frames of the launch signal. -/
theorem entry_frames (c : Dev nD) :
    (V m c main_v22 : S13824x4096.Idx → Elt Ideal .bf16) = paddedFrames (F := Ideal) (frames (F := Ideal) (m ((c : Thread nD τ).loc main_arg0))) := by
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  rfl

attribute [local irreducible] Host.gather Host.reverse concatenate pad extractStridedSlice in
set_option maxRecDepth 8192 in
/-- The second operand array at the region's entry: the padded, narrowed cosine matrix. -/
theorem entry_cos (c : Dev nD) :
    (V m c main_v23 : S2560x4096.Idx → Elt Ideal .bf16) = paddedWeights (F := Ideal) (m ((c : Thread nD τ).loc main_arg1)) := by
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results
  rfl

attribute [local irreducible] Host.gather Host.reverse concatenate pad extractStridedSlice in
set_option maxRecDepth 8192 in
/-- The third operand array at the region's entry: the padded, narrowed sine matrix. -/
theorem entry_sin (c : Dev nD) :
    (V m c main_v24 : S2560x4096.Idx → Elt Ideal .bf16) = paddedWeights (F := Ideal) (m ((c : Thread nD τ).loc main_arg2)) := by
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results
  rfl

end Cert.KernelIdeal.Stft

end
-- ==== Proof.KernelTail.lean ====
/-
  The host lines after the kernel region, read back: the result buffer holds `unpacked` of the two product arrays as the
  region leaves them, and the three argument arrays end as launched.
-/
import proofs.«137428_j85925115724233_1_alg».proof.Proof.Gen.KernelIdeal.Frame
import proofs.«137428_j85925115724233_1_alg».proof.Proof.KernelTerms
import Idealize.ShloMosaic.Lib.StableHlo.Run

noncomputable section

open Idealize.ShloMosaic Idealize.ShloMosaic.TcCoe Idealize.SL.Sem Idealize.ShloMosaic.StableHlo

namespace Cert.KernelIdeal.Stft

open Cert.KernelIdeal Cert.KernelIdeal.Gen

variable (m : (ℓ : Loc nD τ sig) → Buf (Elt Ideal) ℓ) (ρ : Dev nD → PrngReg)

/-- The first product array after the region's last write-back. -/
abbrev realArr (c : Dev nD) : FVec Ideal S13824x2560 .f32 := (dats m 0 c).arrAt 3 cfg0.N
/-- The second product array after the region's last write-back. -/
abbrev imagArr (c : Dev nD) : FVec Ideal S13824x2560 .f32 := (dats m 0 c).arrAt 4 cfg0.N

attribute [local irreducible] concatenate extractStridedSlice transpose in
/-- The nine lines after the region leave in the result buffer the two product arrays unpacked and stacked. -/
theorem tail_eq (c : Dev nD) :
    (Pipeline.afterTail₀ cfgs (dats m) 0 (V0 m) [hostOps1] c main_v34 : S32x2049x431x2.Idx → Elt Ideal .f32)
      = unpacked (realArr m c) (imagArr m c) := by
  unfold Pipeline.afterTail₀
  show StableHlo.after hostOps1 _ (Proc.devRef .tc main_v34) = _
  after_results
  have h3 : Pipeline.withArrays (cfgs 0).spec c (V0 m c) (fun w => (dats m 0 c).arrAt w (cfgs 0).N) (Proc.tc.devRef main_v25_0)
      = (dats m 0 c).arrAt 3 cfg0.N := Pipeline.withArrays_arr spec0 launch0.win.arr_inj c _ _ 3
  have h4 : Pipeline.withArrays (cfgs 0).spec c (V0 m c) (fun w => (dats m 0 c).arrAt w (cfgs 0).N) (Proc.tc.devRef main_v25_1)
      = (dats m 0 c).arrAt 4 cfg0.N := Pipeline.withArrays_arr spec0 launch0.win.arr_inj c _ _ 4
  rw [h3, h4]
  rfl

/-- The frame run re-posted: the result buffer at the unpacked product arrays, the arguments as launched. -/
theorem run_tail : θ_run defs (onTc (τ := τ) (main (F := Ideal))) ⟨m, fun _ => 0, ρ⟩ fun r => ∀ c : Dev nD,
      r.2.mem ((c.tc : Thread nD τ).loc main_v34) = unpacked (realArr m c) (imagArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v34 (Pipeline.mem_restRefs_of main_v34 (by decide) (by decide))).trans (tail_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end Cert.KernelIdeal.Stft

end
-- ==== Proof.KernelValueLayout.lean ====
/-
  The kernel program's host operations, read one entry at a time.

  Each lemma below says which single entry of its operand an operation reads at an entry given by coordinates:
  the stacking of two arrays on a last axis of size 2, the appended unit axis, the swap of the last two of three axes,
  the splitting of a row index into (batch row, frame) and its inverse, the dropping of padding rows and columns, and
  the appending of padding rows. They are then composed: the unpacked array at (b, k, f, 0) is the product array at
  row 431 * b + f and column k, and the padded operands at those rows are the frame (b, f) and row k of the matrix.
  No padding entry is ever read.
-/
import proofs.«137428_j85925115724233_1_alg».proof.Proof.KernelTerms
import Idealize.ShloMosaic.Lib.ValueLayout
import Idealize.ShloMosaic.Lib.KernelVsHost

noncomputable section

namespace Cert.KernelIdeal.Stft

open Idealize.ShloMosaic Idealize.ShloMosaic.ValueIdx Cert.KernelIdeal Cert.KernelIdeal.Gen

variable {α : Type}

/-- The row of the flattened arrays that holds frame `f` of batch row `b`: 431 * b + f, below 13792 = 32 * 431. -/
def frameRow (b : Fin 32) (f : Fin 431) : Fin 13792 := ⟨431 * b.val + f.val, by omega⟩

/-- The same row among the 13824 rows of a padded array. -/
def paddedRow (b : Fin 32) (f : Fin 431) : Fin 13824 := ⟨431 * b.val + f.val, by omega⟩

/-- A frequency bin as a row among the 2560 rows of a padded matrix (or a column of a product array). -/
def paddedBin (k : Fin 2049) : Fin 2560 := ⟨k.val, by omega⟩

/-! ## The stacking on the last axis -/

/-- Two arrays with a last axis of size 1 stacked along it: at last coordinate 0 the result reads the first array. -/
theorem stacked_zero (x₁ x₂ : S32x2049x431x1.Idx → α)
    (h : Shape.Concatenates [S32x2049x431x1, S32x2049x431x1] S32x2049x431x2 3) (b : Fin 32) (k : Fin 2049) (f : Fin 431) :
    concatenate S32x2049x431x2 3 [⟨S32x2049x431x1, x₁⟩, ⟨S32x2049x431x1, x₂⟩] h (ix4 b k f (0 : Fin 2))
      = x₁ (ix4 b k f (0 : Fin 1)) :=
  concatenate_pair_apply_left (3 : Fin S32x2049x431x2.rank) x₁ x₂ h (ix4 b k f (0 : Fin 2)) rfl (ix4 b k f (0 : Fin 1))
    (fun a => match a with | ⟨0, _⟩ => rfl | ⟨1, _⟩ => rfl | ⟨2, _⟩ => rfl | ⟨3, _⟩ => rfl)

/-- … and at last coordinate 1 it reads the second array (at its only last coordinate, 0). -/
theorem stacked_one (x₁ x₂ : S32x2049x431x1.Idx → α)
    (h : Shape.Concatenates [S32x2049x431x1, S32x2049x431x1] S32x2049x431x2 3) (b : Fin 32) (k : Fin 2049) (f : Fin 431) :
    concatenate S32x2049x431x2 3 [⟨S32x2049x431x1, x₁⟩, ⟨S32x2049x431x1, x₂⟩] h (ix4 b k f (1 : Fin 2))
      = x₂ (ix4 b k f (0 : Fin 1)) :=
  concatenate_pair_apply_right (3 : Fin S32x2049x431x2.rank) x₁ x₂ h (ix4 b k f (1 : Fin 2)) rfl rfl (ix4 b k f (0 : Fin 1))
    (fun a => match a with
      | ⟨0, _⟩ => fun _ => rfl | ⟨1, _⟩ => fun _ => rfl | ⟨2, _⟩ => fun _ => rfl | ⟨3, _⟩ => fun hne => absurd rfl hne)
    rfl

/-! ## The appended unit axis, the swap of two axes, the split row index, the dropped padding -/

/-- An array given a fourth axis of size 1 reads, at (b, k, f, 0), the array at (b, k, f). -/
theorem unitAxis_apply (x : S32x2049x431.Idx → α)
    (h : S32x2049x431.BroadcastsInDim S32x2049x431x1 (![0, 1, 2] : Fin 3 → Fin S32x2049x431x1.rank))
    (b : Fin 32) (k : Fin 2049) (f : Fin 431) (u : Fin 1) :
    broadcastInDim S32x2049x431x1 ![0, 1, 2] h x (ix4 b k f u) = x (ix3 b k f) :=
  broadcastInDim_apply (![0, 1, 2] : Fin 3 → Fin S32x2049x431x1.rank) h x (ix4 b k f u) (ix3 b k f)
    (fun a => match a with | ⟨0, _⟩ => rfl | ⟨1, _⟩ => rfl | ⟨2, _⟩ => rfl)

/-- The array with frame and frequency bin swapped reads, at (b, k, f), the operand at (b, f, k). -/
theorem swapped_apply (x : S32x431x2049.Idx → α) (h : S32x431x2049.Transposes [0, 2, 1] S32x2049x431)
    (b : Fin 32) (k : Fin 2049) (f : Fin 431) :
    transpose S32x2049x431 [0, 2, 1] x h (ix3 b k f) = x (ix3 b f k) :=
  transpose_ix3_021_apply x h b k f

/-- 13792 rows of 2049 entries read as 32 batch rows of 431 frames: entry (b, f, k) is entry (431 * b + f, k). -/
theorem splitRows_apply (x : S13792x2049.Idx → α) (h : S13792x2049.ShapeCasts S32x431x2049)
    (b : Fin 32) (f : Fin 431) (k : Fin 2049) :
    shapeCast S32x431x2049 x h (ix3 b f k) = x (ix2 (frameRow b f) k) :=
  shapeCast_apply x h (ix3 b f k) (ix2 (frameRow b f) k) (by
    rw [Shape.rowMajor_val_two, Shape.rowMajor_val_three]
    show (431 * b.val + f.val) * 2049 + k.val = (b.val * 431 + f.val) * 2049 + k.val
    omega)

/-- 32 batch rows of 431 frames of 4096 samples read as 13792 rows: row 431 * b + f is frame (b, f). -/
theorem joinRows_apply (x : S32x431x4096.Idx → α) (h : S32x431x4096.ShapeCasts S13792x4096)
    (b : Fin 32) (f : Fin 431) (j : Fin 4096) :
    shapeCast S13792x4096 x h (ix2 (frameRow b f) j) = x (ix3 b f j) :=
  shapeCast_apply x h (ix2 (frameRow b f) j) (ix3 b f j) (by
    rw [Shape.rowMajor_val_two, Shape.rowMajor_val_three]
    show (b.val * 431 + f.val) * 4096 + j.val = (431 * b.val + f.val) * 4096 + j.val
    omega)

/-- The first 13792 rows and 2049 columns of a [13824, 2560] array: entry (p, k) is the operand's entry (p, k). -/
theorem dropPadding_apply (x : S13824x2560.Idx → α) (h : S13824x2560.Slices ![0, 0] S13792x2049)
    (b : Fin 32) (f : Fin 431) (k : Fin 2049) :
    extractStridedSlice S13792x2049 ![0, 0] x h (ix2 (frameRow b f) k) = x (ix2 (paddedRow b f) (paddedBin k)) :=
  extractStridedSlice_apply (![0, 0] : Fin S13824x2560.rank → Nat) x h (ix2 (frameRow b f) k) (ix2 (paddedRow b f) (paddedBin k))
    (fun a => match a with
      | ⟨0, _⟩ => (Nat.zero_add _).symm
      | ⟨1, _⟩ => (Nat.zero_add _).symm)

/-! ## The appended padding rows -/

/-- 13792 rows with 32 more rows appended: a row below 13792 of the result is that row of the operand. -/
theorem padFrames_apply (x : S13792x4096.Idx → α) {u : Shape} (v : u.Idx → α)
    (h : S13792x4096.Pads (![0, 0] : Fin 2 → Nat) ![32, 0] ![0, 0] S13824x4096) (hu : 0 < u.numel)
    (b : Fin 32) (f : Fin 431) (j : Fin 4096) :
    pad S13824x4096 ![0, 0] ![32, 0] ![0, 0] x v h hu (ix2 (paddedRow b f) j) = x (ix2 (frameRow b f) j) :=
  pad_apply_of_inside (![0, 0] : Fin S13792x4096.rank → Nat) ![32, 0] ![0, 0] x v h hu (ix2 (paddedRow b f) j) (ix2 (frameRow b f) j)
    (fun a => match a with
      | ⟨0, _⟩ => by show 431 * b.val + f.val = 0 + (431 * b.val + f.val) * (0 + 1); omega
      | ⟨1, _⟩ => by show j.val = 0 + j.val * (0 + 1); omega)

/-- 2049 rows with 511 more rows appended: a row below 2049 of the result is that row of the operand. -/
theorem padWeights_apply (x : S2049x4096.Idx → α) {u : Shape} (v : u.Idx → α)
    (h : S2049x4096.Pads (![0, 0] : Fin 2 → Nat) ![511, 0] ![0, 0] S2560x4096) (hu : 0 < u.numel)
    (k : Fin 2049) (j : Fin 4096) :
    pad S2560x4096 ![0, 0] ![511, 0] ![0, 0] x v h hu (ix2 (paddedBin k) j) = x (ix2 k j) :=
  pad_apply_of_inside (![0, 0] : Fin S2049x4096.rank → Nat) ![511, 0] ![0, 0] x v h hu (ix2 (paddedBin k) j) (ix2 k j)
    (fun a => match a with
      | ⟨0, _⟩ => by show k.val = 0 + k.val * (0 + 1); omega
      | ⟨1, _⟩ => by show j.val = 0 + j.val * (0 + 1); omega)

/-! ## The compositions -/

/-- One unpacked product array at (b, k, f, 0) is the product array at row 431 * b + f, column k. -/
theorem unpackedPart_apply (R : FVec Ideal S13824x2560 .f32) (b : Fin 32) (k : Fin 2049) (f : Fin 431) :
    unpackedPart R (ix4 b k f (0 : Fin 1)) = R (ix2 (paddedRow b f) (paddedBin k)) := by
  unfold unpackedPart
  rw [unitAxis_apply _ bcast_S32x2049x431_S32x2049x431x1_0_1_2 b k f 0,
    swapped_apply _ transposes_S32x431x2049_S32x2049x431_0_2_1 b k f,
    splitRows_apply _ shapeCasts_S13792x2049_S32x431x2049 b f k,
    dropPadding_apply R slices_S13824x2560_S13792x2049_0_0 b f k]

/-- The two unpacked arrays stacked: at last coordinate 0 the first product array at (431 * b + f, k). -/
theorem unpacked_zero (R I : FVec Ideal S13824x2560 .f32) (b : Fin 32) (k : Fin 2049) (f : Fin 431) :
    unpacked R I (ix4 b k f (0 : Fin 2)) = R (ix2 (paddedRow b f) (paddedBin k)) := by
  unfold unpacked
  rw [stacked_zero (unpackedPart R) (unpackedPart I) concatenates_S32x2049x431x1_S32x2049x431x1_S32x2049x431x2_d3 b k f]
  exact unpackedPart_apply R b k f

/-- … and at last coordinate 1 the second product array at (431 * b + f, k). -/
theorem unpacked_one (R I : FVec Ideal S13824x2560 .f32) (b : Fin 32) (k : Fin 2049) (f : Fin 431) :
    unpacked R I (ix4 b k f (1 : Fin 2)) = I (ix2 (paddedRow b f) (paddedBin k)) := by
  unfold unpacked
  rw [stacked_one (unpackedPart R) (unpackedPart I) concatenates_S32x2049x431x1_S32x2049x431x1_S32x2049x431x2_d3 b k f]
  exact unpackedPart_apply I b k f

/-- Row 431 * b + f of the padded frames is frame (b, f). -/
theorem paddedFrames_apply (fr : FVec Ideal S32x431x4096 .f32) (b : Fin 32) (f : Fin 431) (j : Fin 4096) :
    paddedFrames fr (ix2 (paddedRow b f) j) = fr (ix3 b f j) := by
  unfold paddedFrames
  rw [truncf_apply,
    padFrames_apply _ _ pads_S13792x4096_S13824x4096_0320_000 h_S_ b f j,
    joinRows_apply fr shapeCasts_S32x431x4096_S13792x4096 b f j]

/-- Row k of a padded analysis matrix is row k of the matrix. -/
theorem paddedWeights_apply (w : FVec Ideal S2049x4096 .f32) (k : Fin 2049) (j : Fin 4096) :
    paddedWeights w (ix2 (paddedBin k) j) = w (ix2 k j) := by
  unfold paddedWeights
  rw [truncf_apply, padWeights_apply _ _ pads_S2049x4096_S2560x4096_05110_000 h_S_ k j]

end Cert.KernelIdeal.Stft

end
-- ==== Proof.KernelValue.lean ====
/-
  The kernel program's host operations around its two matrix products compute the transform.

  Entry (b, k, f, 0) of the unpacked result is entry (431 * b + f, k) of the first product array, the inner product of
  row 431 * b + f of the padded frames with row k of the padded cosine matrix. Those two rows are frame (b, f) and row k
  of the cosine matrix, so the entry is Σ j, fr (b, f, j) * c (k, j). The same holds at last coordinate 1 with the sine
  matrix. The padding rows are never read.
-/
import proofs.«137428_j85925115724233_1_alg».proof.Proof.KernelValueLayout
import proofs.«137428_j85925115724233_1_alg».proof.Proof.Spec

noncomputable section

namespace Cert.KernelIdeal.Stft

open Idealize.ShloMosaic Idealize.ShloMosaic.ValueIdx Cert.KernelIdeal Cert.KernelIdeal.Gen

/-- An entry of a product array is the inner product of the two rows its coordinates name. -/
theorem products_apply (A : FVec Ideal S13824x4096 .bf16) (B : FVec Ideal S2560x4096 .bf16) (p : Fin 13824) (q : Fin 2560) :
    products A B (ix2 p q) = ∑ j : Fin 4096, A (ix2 p j) * B (ix2 q j) := rfl

/-- The product of the padded frames with a padded analysis matrix, at the row of frame (b, f) and the column of bin k,
    is the inner product of frame (b, f) with row k of the matrix. -/
theorem products_padded_apply (fr : FVec Ideal S32x431x4096 .f32) (w : FVec Ideal S2049x4096 .f32)
    (b : Fin 32) (k : Fin 2049) (f : Fin 431) :
    products (paddedFrames fr) (paddedWeights w) (ix2 (paddedRow b f) (paddedBin k)) = Cert.Stft.bin fr w b k f := by
  rw [products_apply (paddedFrames fr) (paddedWeights w) (paddedRow b f) (paddedBin k)]
  unfold Cert.Stft.bin
  exact Finset.sum_congr rfl fun j _ => by
    rw [paddedFrames_apply fr b f j, paddedWeights_apply w k j]

/-- The kernel program's result, entry by entry, is the transform. -/
theorem unpacked_products (fr : FVec Ideal S32x431x4096 .f32) (c s : FVec Ideal S2049x4096 .f32) :
    unpacked (products (paddedFrames fr) (paddedWeights c)) (products (paddedFrames fr) (paddedWeights s)) = Cert.Stft.spectrum fr c s := by
  funext i
  obtain ⟨b, k, f, rfl | rfl⟩ := Cert.Stft.idx_cases i
  · rw [Cert.Stft.spectrum_cos fr c s b k f,
      unpacked_zero (products (paddedFrames fr) (paddedWeights c)) (products (paddedFrames fr) (paddedWeights s)) b k f]
    exact products_padded_apply fr c b k f
  · rw [Cert.Stft.spectrum_sin fr c s b k f,
      unpacked_one (products (paddedFrames fr) (paddedWeights c)) (products (paddedFrames fr) (paddedWeights s)) b k f]
    exact products_padded_apply fr s b k f

end Cert.KernelIdeal.Stft

end
-- ==== Proof.KernelRun.lean ====
/-
  The kernel program's run, read: its result buffer ends at the transform of the framed launch signal and the two launch
  matrices, and its arguments end as launched.

  The pieces: the lines after the region unpack the two product arrays (`run_tail`); each product array is all inner products
  of the rows of the region's operand arrays (`final3`, `final4`); the operand arrays are the padded frames and the padded
  matrices (`entry_frames`, `entry_cos`, `entry_sin`); and unpacking those products gives the transform entry by entry
  (`unpacked_products`).
-/
import proofs.«137428_j85925115724233_1_alg».proof.Proof.Spec
import proofs.«137428_j85925115724233_1_alg».proof.Proof.KernelBlocks
import proofs.«137428_j85925115724233_1_alg».proof.Proof.KernelPrefix
import proofs.«137428_j85925115724233_1_alg».proof.Proof.KernelTail
import proofs.«137428_j85925115724233_1_alg».proof.Proof.KernelValue

noncomputable section

open Idealize.ShloMosaic Idealize.ShloMosaic.TcCoe Idealize.SL.Sem

namespace Cert.KernelIdeal.Stft

open Cert.KernelIdeal Cert.KernelIdeal.Gen

variable (m : (ℓ : Loc nD τ sig) → Buf (Elt Ideal) ℓ) (ρ : Dev nD → PrngReg)

/-- The first product array after the run, in terms of the launch arguments. -/
theorem real_eq (c : Dev nD) :
    realArr m c = products (paddedFrames (F := Ideal) (frames (F := Ideal) (m ((c : Thread nD τ).loc main_arg0))))
      (paddedWeights (F := Ideal) (m ((c : Thread nD τ).loc main_arg1))) := by
  refine (final3 m c).trans ?_
  rw [show framesArr m c = _ from entry_frames m c, show cosArr m c = _ from entry_cos m c]

/-- The second product array after the run, in terms of the launch arguments. -/
theorem imag_eq (c : Dev nD) :
    imagArr m c = products (paddedFrames (F := Ideal) (frames (F := Ideal) (m ((c : Thread nD τ).loc main_arg0))))
      (paddedWeights (F := Ideal) (m ((c : Thread nD τ).loc main_arg2))) := by
  refine (final4 m c).trans ?_
  rw [show framesArr m c = _ from entry_frames m c, show sinArr m c = _ from entry_sin m c]

/-- The unpacked product arrays are the transform of the framed signal and the two matrices. -/
theorem result_eq (c : Dev nD) :
    unpacked (realArr m c) (imagArr m c)
      = Cert.Stft.spectrum (frames (F := Ideal) (m ((c : Thread nD τ).loc main_arg0))) (m ((c : Thread nD τ).loc main_arg1)) (m ((c : Thread nD τ).loc main_arg2)) := by
  rw [real_eq m c, imag_eq m c]
  exact unpacked_products _ _ _

/-- The run, read. -/
theorem run : θ_run defs (onTc (τ := τ) (main (F := Ideal))) ⟨m, fun _ => 0, ρ⟩ fun r => ∀ c : Dev nD,
      r.2.mem ((c.tc : Thread nD τ).loc main_v34)
          = Cert.Stft.spectrum (frames (F := Ideal) (m ((c.tc : Thread nD τ).loc main_arg0))) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (result_eq m c), (h c).2⟩) (run_tail m ρ)

end Cert.KernelIdeal.Stft

end
-- ==== Proof.RefFrames.lean ====
/-
  The framed signal, as one function of the input signal: what both programs compute before any arithmetic.

  A row of 441000 samples is extended by reflection to 445096 samples: 2048 samples mirrored in front (samples 2048 … 1 of
  the row) and 2048 mirrored behind (samples 440998 … 438951), the end samples themselves not repeated. Frame `f` (of 431)
  is the window of 4096 consecutive samples of the extended row that starts at sample `1024 * f`; the window positions are
  computed as 32-bit integers `1024 * f + j`, a negative position wrapped by the row's length (none is negative), and the
  samples are fetched by one gather over all rows at once.
-/
import proofs.«137428_j85925115724233_1_alg».proof.Proof.Gen.ReferenceIdeal

noncomputable section

namespace Cert.ReferenceIdeal.Stft

open Idealize.ShloMosaic Cert.ReferenceIdeal Cert.ReferenceIdeal.Gen

variable {F : FTy → Type} [FloatOps F]

/-- The signal with its first 2048 interior samples mirrored in front. -/
def mirroredFront (x : FVec F S32x1x441000 .f32) : FVec F S32x1x443048 .f32 :=
  concatenate S32x1x443048 2 [⟨S32x1x2048, Host.reverse [2] (extractStridedSlice S32x1x2048 ![0, 0, 1] x slices_S32x1x441000_S32x1x2048_0_0_1)⟩, ⟨S32x1x441000, x⟩] concatenates_S32x1x2048_S32x1x441000_S32x1x443048_d2

/-- The signal extended by reflection on both sides. -/
def reflected (x : FVec F S32x1x441000 .f32) : FVec F S32x1x445096 .f32 :=
  concatenate S32x1x445096 2 [⟨S32x1x443048, mirroredFront x⟩, ⟨S32x1x2048, Host.reverse [2] (extractStridedSlice S32x1x2048 ![0, 0, 440999] (mirroredFront x) slices_S32x1x443048_S32x1x2048_0_0_440999)⟩] concatenates_S32x1x443048_S32x1x2048_S32x1x445096_d2

/-- The window positions `1024 * f + j`, as 32-bit integers. -/
def positions : IVec S431x4096 32 :=
  addi (broadcastInDim S431x4096 ![0, 1] bcast_S431x1_S431x4096_0_1 (muli (broadcastInDim S431x1 ![] bcast_S_S431x1 (constantI S_ 32 1024#32)) (broadcastInDim S431x1 ![0] bcast_S431_S431x1_0 (iotaInDim S431 32 0))))
    (broadcastInDim S431x4096 ![0, 1] bcast_S1x4096_S431x4096_0_1 (broadcastInDim S1x4096 ![1] bcast_S4096_S1x4096_1 (iotaInDim S4096 32 0)))

/-- The positions as the gather reads them: a negative one wrapped by the extended row's length, one index per entry. -/
def sampleIdx : IVec S431x4096x1 32 :=
  broadcastInDim S431x4096x1 ![0, 1] bcast_S431x4096_S431x4096x1_0_1
    (select (cmpi .slt positions (broadcastInDim S431x4096 ![] bcast_S_S431x4096 (constantI S_ 32 0#32)))
      (addi positions (broadcastInDim S431x4096 ![] bcast_S_S431x4096 (constantI S_ 32 445096#32))) positions)

/-- The framed signal: entry `(b, f, j)` is sample `1024 * f + j` of row `b` of the reflected signal. -/
def frames (x : FVec F S32x1x441000 .f32) : FVec F S32x431x4096 .f32 :=
  Host.gather gather_S32x445096_S431x4096x1_S32x431x4096_0_1_n_n_1_2_321
    (shapeCast S32x445096 (reflected x) shapeCasts_S32x1x445096_S32x445096) sampleIdx

end Cert.ReferenceIdeal.Stft

end
-- ==== Proof.RefStacked.lean ====
/-
  What the reference program computes from the framed signal: the text of its last seven operations, as one
  function of the frames and the two analysis matrices.

  Each analysis matrix (one row of 4096 weights per frequency bin) is contracted with the frames over the sample
  axis, giving an array indexed (bin, batch row, frame); the batch axis is brought in front of the bin axis; a last
  axis of length one is appended; and the cosine and sine arrays are joined along that last axis.
-/
import proofs.«137428_j85925115724233_1_alg».proof.Proof.Gen.ReferenceIdeal

noncomputable section

namespace Cert.ReferenceIdeal.Stft

open Idealize.ShloMosaic Cert.ReferenceIdeal Cert.ReferenceIdeal.Gen

variable {F : FTy → Type} [FloatOps F]

/-- One analysis matrix against the frames: contracted over the sample axis, the batch axis moved in front of the
    bin axis, a unit axis appended. Entry `(b, k, f, 0)` is the inner product of row `k` of `w` with frame
    `(b, f)`. -/
def column (fr : FVec F S32x431x4096 .f32) (w : FVec F S2049x4096 .f32) : FVec F S32x2049x431x1 .f32 :=
  broadcastInDim S32x2049x431x1 ![0, 1, 2] bcast_S32x2049x431_S32x2049x431x1_0_1_2
    (transpose S32x2049x431 [1, 0, 2]
      (Host.dotGeneral dot_S2049x4096_S32x431x4096_S2049x32x431_1_2_0_01_n_n none w fr)
      transposes_S2049x32x431_S32x2049x431_1_0_2)

/-- The cosine and sine columns joined along the last axis. -/
def stacked (fr : FVec F S32x431x4096 .f32) (c s : FVec F S2049x4096 .f32) : FVec F S32x2049x431x2 .f32 :=
  concatenate S32x2049x431x2 3 [⟨S32x2049x431x1, column fr c⟩, ⟨S32x2049x431x1, column fr s⟩]
    concatenates_S32x2049x431x1_S32x2049x431x1_S32x2049x431x2_d3

end Cert.ReferenceIdeal.Stft

end
-- ==== Proof.RefValue.lean ====
/-
  The reference program's result, read at an index.

  The last seven operations of the program, applied to ANY framed signal and ANY two analysis matrices, give the
  transform of Spec.lean.  The proof reads the joined array at `(b, k, f, 0)` and at `(b, k, f, 1)` one
  operation at a time: the join along the last axis picks the cosine or the sine column; the appended unit axis
  is dropped; moving the batch axis in front of the bin axis swaps the first two coordinates back; and the
  contraction over the sample axis at `(k, b, f)` is `Σ j, w (k, j) * fr (b, f, j)`.  Commuting the two factors
  gives the transform's inner product `Σ j, fr (b, f, j) * w (k, j)`; on the extended reals the product commutes
  whatever the operands, so nothing is asked of the inputs.
-/
import proofs.«137428_j85925115724233_1_alg».proof.Proof.RefStacked
import proofs.«137428_j85925115724233_1_alg».proof.Proof.Spec
import Idealize.ShloMosaic.Lib.Pipeline.Value
import Idealize.ShloMosaic.PureOps.Ideal.Laws
import Idealize.ShloMosaic.Lib.ValueIdx

noncomputable section

namespace Cert.ReferenceIdeal.Stft

open Idealize.ShloMosaic Idealize.ShloMosaic.ValueIdx Cert.ReferenceIdeal Cert.ReferenceIdeal.Gen

/-! ## The contraction's operand indices, axis by axis

The contraction pairs axis 1 of the matrix with axis 2 of the frames; the result's axes are the matrix's row axis,
then the frames' batch and frame axes. -/

/-- The matrix's row coordinate is the result's first coordinate. -/
theorem lhs_0 (j : S2049x32x431.Idx) (q : dot_S2049x4096_S32x431x4096_S2049x32x431_1_2_0_01_n_n.contr.Idx) :
    (dot_S2049x4096_S32x431x4096_S2049x32x431_1_2_0_01_n_n.lhsIdx j q 0).val = (j 0).val := rfl
/-- The matrix's column coordinate is the contraction coordinate. -/
theorem lhs_1 (j : S2049x32x431.Idx) (q : dot_S2049x4096_S32x431x4096_S2049x32x431_1_2_0_01_n_n.contr.Idx) :
    (dot_S2049x4096_S32x431x4096_S2049x32x431_1_2_0_01_n_n.lhsIdx j q 1).val = (q ⟨0, Nat.one_pos⟩).val :=
  dot_S2049x4096_S32x431x4096_S2049x32x431_1_2_0_01_n_n.lhsIdx_val_of_single rfl j q
/-- The frames' batch coordinate is the result's second coordinate. -/
theorem rhs_0 (j : S2049x32x431.Idx) (q : dot_S2049x4096_S32x431x4096_S2049x32x431_1_2_0_01_n_n.contr.Idx) :
    (dot_S2049x4096_S32x431x4096_S2049x32x431_1_2_0_01_n_n.rhsIdx j q 0).val = (j 1).val := rfl
/-- The frames' frame coordinate is the result's third coordinate. -/
theorem rhs_1 (j : S2049x32x431.Idx) (q : dot_S2049x4096_S32x431x4096_S2049x32x431_1_2_0_01_n_n.contr.Idx) :
    (dot_S2049x4096_S32x431x4096_S2049x32x431_1_2_0_01_n_n.rhsIdx j q 1).val = (j 2).val := rfl
/-- The frames' sample coordinate is the contraction coordinate. -/
theorem rhs_2 (j : S2049x32x431.Idx) (q : dot_S2049x4096_S32x431x4096_S2049x32x431_1_2_0_01_n_n.contr.Idx) :
    (dot_S2049x4096_S32x431x4096_S2049x32x431_1_2_0_01_n_n.rhsIdx j q 2).val = (q ⟨0, Nat.one_pos⟩).val :=
  dot_S2049x4096_S32x431x4096_S2049x32x431_1_2_0_01_n_n.rhsIdx_val_of_single rfl j q

/-- The contraction read at `(k, b, f)`: the sum over the samples `j` of `w (k, j) * fr (b, f, j)`. -/
theorem dot_apply (fr : FVec Ideal S32x431x4096 .f32) (w : FVec Ideal S2049x4096 .f32)
    (b : Fin 32) (k : Fin 2049) (f : Fin 431) :
    Host.dotGeneral dot_S2049x4096_S32x431x4096_S2049x32x431_1_2_0_01_n_n none w fr (ix3 k b f)
      = ∑ j : Fin 4096, w (ix2 k j) * fr (ix3 b f j) := by
  refine (Ideal.dotGeneral_apply dot_S2049x4096_S32x431x4096_S2049x32x431_1_2_0_01_n_n none .single w fr (ix3 k b f)).trans ?_
  rw [← Equiv.sum_comp (contrEquiv1 dot_S2049x4096_S32x431x4096_S2049x32x431_1_2_0_01_n_n 4096 rfl rfl).symm]
  refine Finset.sum_congr rfl fun j _ => ?_
  have hj := contrEquiv1_symm_val dot_S2049x4096_S32x431x4096_S2049x32x431_1_2_0_01_n_n 4096 rfl rfl j
  have hl : dot_S2049x4096_S32x431x4096_S2049x32x431_1_2_0_01_n_n.lhsIdx (ix3 k b f)
      ((contrEquiv1 dot_S2049x4096_S32x431x4096_S2049x32x431_1_2_0_01_n_n 4096 rfl rfl).symm j) = ix2 k j := by
    funext a
    match a with
    | ⟨0, _⟩ => exact Fin.ext (lhs_0 _ _)
    | ⟨1, _⟩ => exact Fin.ext ((lhs_1 _ _).trans hj)
  have hr : dot_S2049x4096_S32x431x4096_S2049x32x431_1_2_0_01_n_n.rhsIdx (ix3 k b f)
      ((contrEquiv1 dot_S2049x4096_S32x431x4096_S2049x32x431_1_2_0_01_n_n 4096 rfl rfl).symm j) = ix3 b f j := by
    funext a
    match a with
    | ⟨0, _⟩ => exact Fin.ext (rhs_0 _ _)
    | ⟨1, _⟩ => exact Fin.ext (rhs_1 _ _)
    | ⟨2, _⟩ => exact Fin.ext ((rhs_2 _ _).trans hj)
  rw [hl, hr]

/-- Moving the batch axis in front of the bin axis: entry `(b, k, f)` of the result is entry `(k, b, f)` of the
    operand. -/
theorem swap_apply (x : FVec Ideal S2049x32x431 .f32) (b : Fin 32) (k : Fin 2049) (f : Fin 431) :
    transpose S32x2049x431 [1, 0, 2] x transposes_S2049x32x431_S32x2049x431_1_0_2 (ix3 b k f) = x (ix3 k b f) :=
  transpose_apply [1, 0, 2] x transposes_S2049x32x431_S32x2049x431_1_0_2 (ix3 b k f) (ix3 k b f) fun a => by
    match a with
    | ⟨0, _⟩ => rfl
    | ⟨1, _⟩ => rfl
    | ⟨2, _⟩ => rfl

/-- Appending a unit axis: entry `(b, k, f, 0)` of the result is entry `(b, k, f)` of the operand. -/
theorem unit_apply (x : FVec Ideal S32x2049x431 .f32) (b : Fin 32) (k : Fin 2049) (f : Fin 431) :
    broadcastInDim S32x2049x431x1 ![0, 1, 2] bcast_S32x2049x431_S32x2049x431x1_0_1_2 x (ix4 b k f (0 : Fin 1)) = x (ix3 b k f) :=
  broadcastInDim_apply ![0, 1, 2] bcast_S32x2049x431_S32x2049x431x1_0_1_2 x (ix4 b k f (0 : Fin 1)) (ix3 b k f) fun a => by
    match a with
    | ⟨0, _⟩ => rfl
    | ⟨1, _⟩ => rfl
    | ⟨2, _⟩ => rfl

/-- One column read at `(b, k, f, 0)`: the inner product of frame `(b, f)` with row `k` of the matrix. -/
theorem column_apply (fr : FVec Ideal S32x431x4096 .f32) (w : FVec Ideal S2049x4096 .f32)
    (b : Fin 32) (k : Fin 2049) (f : Fin 431) :
    column fr w (ix4 b k f (0 : Fin 1)) = Cert.Stft.bin fr w b k f := by
  unfold column
  refine (unit_apply _ b k f).trans ?_
  refine (swap_apply _ b k f).trans ?_
  refine (dot_apply fr w b k f).trans ?_
  exact Finset.sum_congr rfl fun j _ => mul_comm _ _

/-- The joined array at last coordinate 0 is the first column. -/
theorem stacked_zero (x y : FVec Ideal S32x2049x431x1 .f32) (b : Fin 32) (k : Fin 2049) (f : Fin 431) :
    concatenate S32x2049x431x2 3 [⟨S32x2049x431x1, x⟩, ⟨S32x2049x431x1, y⟩]
        concatenates_S32x2049x431x1_S32x2049x431x1_S32x2049x431x2_d3 (ix4 b k f (0 : Fin 2))
      = x (ix4 b k f (0 : Fin 1)) :=
  concatenate_pair_apply_left 3 x y concatenates_S32x2049x431x1_S32x2049x431x1_S32x2049x431x2_d3
    (ix4 b k f (0 : Fin 2)) rfl (ix4 b k f (0 : Fin 1)) fun a => by
      match a with
      | ⟨0, _⟩ => rfl
      | ⟨1, _⟩ => rfl
      | ⟨2, _⟩ => rfl
      | ⟨3, _⟩ => rfl

/-- The joined array at last coordinate 1 is the second column. -/
theorem stacked_one (x y : FVec Ideal S32x2049x431x1 .f32) (b : Fin 32) (k : Fin 2049) (f : Fin 431) :
    concatenate S32x2049x431x2 3 [⟨S32x2049x431x1, x⟩, ⟨S32x2049x431x1, y⟩]
        concatenates_S32x2049x431x1_S32x2049x431x1_S32x2049x431x2_d3 (ix4 b k f (1 : Fin 2))
      = y (ix4 b k f (0 : Fin 1)) :=
  concatenate_pair_apply_right 3 x y concatenates_S32x2049x431x1_S32x2049x431x1_S32x2049x431x2_d3
    (ix4 b k f (1 : Fin 2)) rfl rfl (ix4 b k f (0 : Fin 1))
    (fun a ha => by
      match a, ha with
      | ⟨0, _⟩, _ => rfl
      | ⟨1, _⟩, _ => rfl
      | ⟨2, _⟩, _ => rfl
      | ⟨3, _⟩, ha => exact absurd rfl ha)
    rfl

/-- The program's last seven operations compute the transform, whatever the frames and the matrices. -/
theorem stacked_eq_spectrum (fr : FVec Ideal S32x431x4096 .f32) (c s : FVec Ideal S2049x4096 .f32) :
    stacked fr c s = Cert.Stft.spectrum fr c s := by
  funext i
  obtain ⟨b, k, f, rfl | rfl⟩ := Cert.Stft.idx_cases i
  · rw [Cert.Stft.spectrum_cos]
    unfold stacked
    exact (stacked_zero _ _ b k f).trans (column_apply fr c b k f)
  · rw [Cert.Stft.spectrum_sin]
    unfold stacked
    exact (stacked_one _ _ b k f).trans (column_apply fr s b k f)

end Cert.ReferenceIdeal.Stft

end
-- ==== Proof.RefRun.lean ====
/-
  The reference program's run, read back as one list of its operations.

  The program has no kernel: its @main is a straight line of thirty-six whole-tensor operations once its two
  outlined functions (the reflect padding and the reversal it calls twice) are unfolded at their calls.  This
  module lists those operations in order, shows @main to be exactly that line, and concludes that every
  execution ends with each buffer at the fold of the operations over the launch contents.
-/
import proofs.«137428_j85925115724233_1_alg».proof.Proof.RefFrames
import proofs.«137428_j85925115724233_1_alg».proof.Proof.RefStacked
import proofs.«137428_j85925115724233_1_alg».proof.Proof.RefValue
import Idealize.ShloMosaic.Lib.StableHlo.Run

noncomputable section

namespace Cert.ReferenceIdeal.Stft

open Cert.ReferenceIdeal Cert.ReferenceIdeal.Gen Idealize.ShloMosaic Idealize.ShloMosaic.TcCoe Idealize.SL.Sem Idealize.ShloMosaic.StableHlo

variable {F : FTy → Type} [FloatOps F]

/-- The operations up to the gather, in order: the scalar the padding function takes (and never reads), the
    padding function's eight operations at its call (two slices, the reversal of the first, the signal with that
    reversal in front, two slices of the result, the reversal of the second, the final concatenation), then the
    window positions as 32-bit integers, the flattening of the padded signal, the wrap of a negative position, and
    the gather that fetches every frame. -/
abbrev opsFrames : List (HloOp τ sig (Elt F)) :=
  [ nullary main_c (constantI S_ 32 0#32),
    TRef.unary (.of main_arg0 : TRef sig ⟨S32x1x441000, .f32⟩) main_call0.v0 (extractStridedSlice S32x1x1 ![0, 0, 0] · slices_S32x1x441000_S32x1x1_0_0_0),
    TRef.unary (.of main_arg0 : TRef sig ⟨S32x1x441000, .f32⟩) main_call0.v1 (extractStridedSlice S32x1x2048 ![0, 0, 1] · slices_S32x1x441000_S32x1x2048_0_0_1),
    TRef.unary main_call0.v1 main_call0.call0.v0 (Host.reverse [2]),
    TRef.binary main_call0.call0.v0 (.of main_arg0 : TRef sig ⟨S32x1x441000, .f32⟩) main_call0.v3 (fun a b => concatenate S32x1x443048 2 [⟨S32x1x2048, a⟩, ⟨S32x1x441000, b⟩] concatenates_S32x1x2048_S32x1x441000_S32x1x443048_d2),
    TRef.unary main_call0.v3 main_call0.v4 (extractStridedSlice S32x1x1 ![0, 0, 443047] · slices_S32x1x443048_S32x1x1_0_0_443047),
    TRef.unary main_call0.v3 main_call0.v5 (extractStridedSlice S32x1x2048 ![0, 0, 440999] · slices_S32x1x443048_S32x1x2048_0_0_440999),
    TRef.unary main_call0.v5 main_call0.call1.v0 (Host.reverse [2]),
    TRef.binary main_call0.v3 main_call0.call1.v0 main_call0.v7 (fun a b => concatenate S32x1x445096 2 [⟨S32x1x443048, a⟩, ⟨S32x1x2048, b⟩] concatenates_S32x1x443048_S32x1x2048_S32x1x445096_d2),
    nullary main_v1 (iotaInDim S431 32 0),
    unary main_v1 main_v2 (broadcastInDim S431x1 ![0] bcast_S431_S431x1_0 : (⟨S431, .i32⟩ : BufTy).Contents (Elt F) → (⟨S431x1, .i32⟩ : BufTy).Contents (Elt F)),
    nullary main_c_0 (constantI S_ 32 1024#32),
    unary main_c_0 main_v3 (broadcastInDim S431x1 ![] bcast_S_S431x1 : (⟨S_, .i32⟩ : BufTy).Contents (Elt F) → (⟨S431x1, .i32⟩ : BufTy).Contents (Elt F)),
    binary main_v3 main_v2 main_v4 (muli : (⟨S431x1, .i32⟩ : BufTy).Contents (Elt F) → (⟨S431x1, .i32⟩ : BufTy).Contents (Elt F) → (⟨S431x1, .i32⟩ : BufTy).Contents (Elt F)),
    nullary main_v5 (iotaInDim S4096 32 0),
    unary main_v5 main_v6 (broadcastInDim S1x4096 ![1] bcast_S4096_S1x4096_1 : (⟨S4096, .i32⟩ : BufTy).Contents (Elt F) → (⟨S1x4096, .i32⟩ : BufTy).Contents (Elt F)),
    unary main_v4 main_v7 (broadcastInDim S431x4096 ![0, 1] bcast_S431x1_S431x4096_0_1 : (⟨S431x1, .i32⟩ : BufTy).Contents (Elt F) → (⟨S431x4096, .i32⟩ : BufTy).Contents (Elt F)),
    unary main_v6 main_v8 (broadcastInDim S431x4096 ![0, 1] bcast_S1x4096_S431x4096_0_1 : (⟨S1x4096, .i32⟩ : BufTy).Contents (Elt F) → (⟨S431x4096, .i32⟩ : BufTy).Contents (Elt F)),
    binary main_v7 main_v8 main_v9 (addi : (⟨S431x4096, .i32⟩ : BufTy).Contents (Elt F) → (⟨S431x4096, .i32⟩ : BufTy).Contents (Elt F) → (⟨S431x4096, .i32⟩ : BufTy).Contents (Elt F)),
    reshape main_v0 main_v10 rfl shapeCasts_S32x1x445096_S32x445096,
    nullary main_c_1 (constantI S_ 32 0#32),
    unary main_c_1 main_v11 (broadcastInDim S431x4096 ![] bcast_S_S431x4096 : (⟨S_, .i32⟩ : BufTy).Contents (Elt F) → (⟨S431x4096, .i32⟩ : BufTy).Contents (Elt F)),
    binary main_v9 main_v11 main_v12 (cmpi .slt : (⟨S431x4096, .i32⟩ : BufTy).Contents (Elt F) → (⟨S431x4096, .i32⟩ : BufTy).Contents (Elt F) → (⟨S431x4096, .i1⟩ : BufTy).Contents (Elt F)),
    nullary main_c_2 (constantI S_ 32 445096#32),
    unary main_c_2 main_v13 (broadcastInDim S431x4096 ![] bcast_S_S431x4096 : (⟨S_, .i32⟩ : BufTy).Contents (Elt F) → (⟨S431x4096, .i32⟩ : BufTy).Contents (Elt F)),
    binary main_v9 main_v13 main_v14 (addi : (⟨S431x4096, .i32⟩ : BufTy).Contents (Elt F) → (⟨S431x4096, .i32⟩ : BufTy).Contents (Elt F) → (⟨S431x4096, .i32⟩ : BufTy).Contents (Elt F)),
    ternary main_v12 main_v14 main_v9 main_v15 (select : (⟨S431x4096, .i1⟩ : BufTy).Contents (Elt F) → (⟨S431x4096, .i32⟩ : BufTy).Contents (Elt F) → (⟨S431x4096, .i32⟩ : BufTy).Contents (Elt F) → (⟨S431x4096, .i32⟩ : BufTy).Contents (Elt F)),
    unary main_v15 main_v16 (broadcastInDim S431x4096x1 ![0, 1] bcast_S431x4096_S431x4096x1_0_1 : (⟨S431x4096, .i32⟩ : BufTy).Contents (Elt F) → (⟨S431x4096x1, .i32⟩ : BufTy).Contents (Elt F)),
    binary main_v10 main_v16 main_v17 ((fun x i => Host.gather gather_S32x445096_S431x4096x1_S32x431x4096_0_1_n_n_1_2_321 x i) : (⟨S32x445096, .f32⟩ : BufTy).Contents (Elt F) → (⟨S431x4096x1, .i32⟩ : BufTy).Contents (Elt F) → (⟨S32x431x4096, .f32⟩ : BufTy).Contents (Elt F)) ]

/-- The operations after the gather: each analysis matrix contracted with the frames over the sample axis, the
    batch axis brought in front of the frequency axis, a last axis of length one appended to each, and the two
    joined along it. -/
abbrev opsBins : List (HloOp τ sig (Elt F)) :=
  [ binary main_arg1 main_v17 main_v18 ((fun l r => Host.dotGeneral dot_S2049x4096_S32x431x4096_S2049x32x431_1_2_0_01_n_n none l r) : (⟨S2049x4096, .f32⟩ : BufTy).Contents (Elt F) → (⟨S32x431x4096, .f32⟩ : BufTy).Contents (Elt F) → (⟨S2049x32x431, .f32⟩ : BufTy).Contents (Elt F)),
    unary main_v18 main_v19 ((transpose S32x2049x431 [1, 0, 2] · transposes_S2049x32x431_S32x2049x431_1_0_2) : (⟨S2049x32x431, .f32⟩ : BufTy).Contents (Elt F) → (⟨S32x2049x431, .f32⟩ : BufTy).Contents (Elt F)),
    binary main_arg2 main_v17 main_v20 ((fun l r => Host.dotGeneral dot_S2049x4096_S32x431x4096_S2049x32x431_1_2_0_01_n_n none l r) : (⟨S2049x4096, .f32⟩ : BufTy).Contents (Elt F) → (⟨S32x431x4096, .f32⟩ : BufTy).Contents (Elt F) → (⟨S2049x32x431, .f32⟩ : BufTy).Contents (Elt F)),
    unary main_v20 main_v21 ((transpose S32x2049x431 [1, 0, 2] · transposes_S2049x32x431_S32x2049x431_1_0_2) : (⟨S2049x32x431, .f32⟩ : BufTy).Contents (Elt F) → (⟨S32x2049x431, .f32⟩ : BufTy).Contents (Elt F)),
    unary main_v19 main_v22 (broadcastInDim S32x2049x431x1 ![0, 1, 2] bcast_S32x2049x431_S32x2049x431x1_0_1_2 : (⟨S32x2049x431, .f32⟩ : BufTy).Contents (Elt F) → (⟨S32x2049x431x1, .f32⟩ : BufTy).Contents (Elt F)),
    unary main_v21 main_v23 (broadcastInDim S32x2049x431x1 ![0, 1, 2] bcast_S32x2049x431_S32x2049x431x1_0_1_2 : (⟨S32x2049x431, .f32⟩ : BufTy).Contents (Elt F) → (⟨S32x2049x431x1, .f32⟩ : BufTy).Contents (Elt F)),
    binary main_v22 main_v23 main_v24 ((fun a b => concatenate S32x2049x431x2 3 [⟨S32x2049x431x1, a⟩, ⟨S32x2049x431x1, b⟩] concatenates_S32x2049x431x1_S32x2049x431x1_S32x2049x431x2_d3) : (⟨S32x2049x431x1, .f32⟩ : BufTy).Contents (Elt F) → (⟨S32x2049x431x1, .f32⟩ : BufTy).Contents (Elt F) → (⟨S32x2049x431x2, .f32⟩ : BufTy).Contents (Elt F)) ]

/-- @main's thirty-six operations, in order. -/
abbrev ops : List (HloOp τ sig (Elt F)) := opsFrames ++ opsBins

set_option maxRecDepth 4096 in
/-- @main is that straight line: with the two functions' bodies unfolded at their calls and sequencing
    reassociated, both sides are the same chain of steps. -/
theorem main_eq (c : Dev nD) : main (F := F) c = seq ops := by
  simp only [main, fn_pad.body, fn_flip.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches buffers of the core only. -/
theorem ops_sub : (ops : List (HloOp τ sig (Elt F))).Forall fun op => op.bufs ⊆ tcRefs τ sig :=
  ⟨nullary_bufs_sub .., unary_bufs_sub .., unary_bufs_sub .., unary_bufs_sub .., binary_bufs_sub .., unary_bufs_sub ..,
    unary_bufs_sub .., unary_bufs_sub .., binary_bufs_sub .., nullary_bufs_sub .., unary_bufs_sub .., nullary_bufs_sub ..,
    unary_bufs_sub .., binary_bufs_sub .., nullary_bufs_sub .., unary_bufs_sub .., unary_bufs_sub .., unary_bufs_sub ..,
    binary_bufs_sub .., reshape_bufs_sub .., nullary_bufs_sub .., unary_bufs_sub .., binary_bufs_sub .., nullary_bufs_sub ..,
    unary_bufs_sub .., binary_bufs_sub .., ternary_bufs_sub .., unary_bufs_sub .., binary_bufs_sub ..,
    binary_bufs_sub .., unary_bufs_sub .., binary_bufs_sub .., unary_bufs_sub .., unary_bufs_sub .., unary_bufs_sub ..,
    binary_bufs_sub ..⟩

/-- From any memory with zero counters, every weakly fair execution of @main terminates with each buffer at the
    fold of the operations over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The fold of the whole line is the fold of its second stretch over the fold of its first. -/
theorem after_ops (V : Valuation τ sig (Elt F)) : after ops V = after opsBins (after opsFrames V) := rfl

attribute [local irreducible] Host.gather Host.reverse concatenate extractStridedSlice shapeCast in
set_option maxRecDepth 8192 in
/-- After the first stretch the gather's result buffer holds the framed signal: the fold unrolled, each operation's
    result read at its own buffer, the text is that of `frames` at the signal's launch contents. -/
theorem frames_eq (V : Valuation τ sig (Elt F)) :
    after opsFrames V (main_v17 : DevRef τ sig) = frames (V (main_arg0 : DevRef τ sig)) := by
  simp only [after_cons, after_nil]
  rfl

attribute [local irreducible] concatenate transpose broadcastInDim in
set_option maxRecDepth 8192 in
/-- After the second stretch, from any contents, the last buffer holds the two columns joined, computed from what
    the gather's buffer and the two matrices' buffers held. -/
theorem stacked_eq (W : Valuation τ sig (Elt F)) :
    after opsBins W (main_v24 : DevRef τ sig)
      = stacked (W (main_v17 : DevRef τ sig)) (W (main_arg1 : DevRef τ sig)) (W (main_arg2 : DevRef τ sig)) := by
  simp only [after_cons, after_nil]
  rfl

/-- No operation writes an argument's buffer. -/
theorem arg0_eq (V : Valuation τ sig (Elt F)) : after ops V (main_arg0 : DevRef τ sig) = V (main_arg0 : DevRef τ sig) := by
  simp only [after_cons, after_nil, List.cons_append, List.nil_append]
  rfl
theorem arg1_eq (V : Valuation τ sig (Elt F)) : after ops V (main_arg1 : DevRef τ sig) = V (main_arg1 : DevRef τ sig) := by
  simp only [after_cons, after_nil, List.cons_append, List.nil_append]
  rfl
theorem arg2_eq (V : Valuation τ sig (Elt F)) : after ops V (main_arg2 : DevRef τ sig) = V (main_arg2 : DevRef τ sig) := by
  simp only [after_cons, after_nil, List.cons_append, List.nil_append]
  rfl
theorem frames_arg1_eq (V : Valuation τ sig (Elt F)) : after opsFrames V (main_arg1 : DevRef τ sig) = V (main_arg1 : DevRef τ sig) := by
  simp only [after_cons, after_nil]
  rfl
theorem frames_arg2_eq (V : Valuation τ sig (Elt F)) : after opsFrames V (main_arg2 : DevRef τ sig) = V (main_arg2 : DevRef τ sig) := by
  simp only [after_cons, after_nil]
  rfl

/-- The whole line leaves in the last buffer the two columns of the framed signal against the two matrices. -/
theorem out_eq (V : Valuation τ sig (Elt F)) :
    after ops V (main_v24 : DevRef τ sig)
      = stacked (frames (V (main_arg0 : DevRef τ sig))) (V (main_arg1 : DevRef τ sig)) (V (main_arg2 : DevRef τ sig)) := by
  rw [after_ops, stacked_eq, frames_eq, frames_arg1_eq, frames_arg2_eq]

/-- At the ideal values, from any memory with zero counters: every weakly fair execution of @main terminates with
    the result buffer at the transform of the framed input signal and the two analysis matrices, and the three
    argument buffers as they were. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v24)
          = Cert.Stft.spectrum (frames (m ((c.tc : Thread nD τ).loc main_arg0))) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨(h c main_v24).trans ((out_eq (launchContents m c)).trans (stacked_eq_spectrum _ _ _)),
        (h c main_arg0).trans (arg0_eq (launchContents m c)),
        (h c main_arg1).trans (arg1_eq (launchContents m c)),
        (h c main_arg2).trans (arg2_eq (launchContents m c))⟩)
    (run_fold m ρ)

end Cert.ReferenceIdeal.Stft

end
-- ==== Proof.lean ====
/-
  A short-time Fourier transform, computed two ways, is one function of its inputs over the extended reals.

  Both programs extend each row of the signal by reflection, cut it into 431 overlapping frames of 4096 samples (hop 1024) and
  take, for each of 2049 frequency bins, the inner product of every frame with a row of a cosine matrix and with a row of a
  sine matrix; the result holds the cosine products at last coordinate 0 and the sine products at last coordinate 1
  (`Cert.Stft.spectrum`, Proof/Spec.lean).

  The reference takes the inner products in one contraction per matrix, with the matrix as the left factor, and swaps two
  axes of the result (Proof/RefRun.lean). The kernel flattens the frames to rows, pads frames and matrices with zero rows to
  multiples of 512, narrows them to a 16-bit format (the identity on extended reals), forms the products tile by tile on a
  5 × 27 grid, each tile contracting all 4096 samples at once, and then drops the padding and restores the axes
  (Proof/KernelBlocks.lean: the tiles fill one whole-array function; Proof/KernelPrefix.lean, Proof/KernelTail.lean: the lines
  before and after the tiles; Proof/KernelValue.lean: entry by entry the result is the transform; Proof/KernelRun.lean: the run).
  The two agree entry by entry by commutativity of the product under a finite sum; the zero padding is never read, and no
  finiteness of the inputs is needed. The framing of the signal is the same text in both programs and is carried as one
  function, never opened (`frames_eq`).

  The three frame claims: the word-level and the idealized kernel's are the generated frame certificates; the reference's
  is its run with the result dropped. The idealization rewrote nothing, so its claim is trivial.
-/
import proofs.«137428_j85925115724233_1_alg».proof.Defs
import proofs.«137428_j85925115724233_1_alg».proof.Proof.Gen.Kernel
import proofs.«137428_j85925115724233_1_alg».proof.Proof.Gen.Kernel.Skeleton
import proofs.«137428_j85925115724233_1_alg».proof.Proof.Gen.Kernel.Launch
import proofs.«137428_j85925115724233_1_alg».proof.Proof.Gen.Kernel.Points
import proofs.«137428_j85925115724233_1_alg».proof.Proof.Gen.Kernel.Frame
import proofs.«137428_j85925115724233_1_alg».proof.Proof.Gen.KernelIdeal
import proofs.«137428_j85925115724233_1_alg».proof.Proof.Gen.KernelIdeal.Skeleton
import proofs.«137428_j85925115724233_1_alg».proof.Proof.Gen.KernelIdeal.Launch
import proofs.«137428_j85925115724233_1_alg».proof.Proof.Gen.KernelIdeal.Points
import proofs.«137428_j85925115724233_1_alg».proof.Proof.Gen.KernelIdeal.Frame
import proofs.«137428_j85925115724233_1_alg».proof.Proof.Gen.ReferenceIdeal
import proofs.«137428_j85925115724233_1_alg».proof.Proof.Gen.Pre_finite_inputs
import proofs.«137428_j85925115724233_1_alg».proof.Proof.KernelRun
import proofs.«137428_j85925115724233_1_alg».proof.Proof.RefRun
import Idealize.ShloMosaic.Adequacy
import Idealize.ShloMosaic.Init

noncomputable section

namespace Cert.Proof

open Idealize.ShloMosaic Idealize.SL.Sem

/-- The framed signal is one function of the signal in the two programs: the same operations with the same literals. -/
theorem frames_eq (x : FVec Ideal Cert.KernelIdeal.S32x1x441000 .f32) :
    Cert.ReferenceIdeal.Stft.frames (F := Ideal) x = Cert.KernelIdeal.Stft.frames (F := Ideal) x := rfl

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_referenceIdeal : Cert.frame_ReferenceIdeal := fun m ρ _ =>
  (θ_run Cert.ReferenceIdeal.defs _ _).mono (fun _ h c => (h c).2) (Cert.ReferenceIdeal.Stft.run m ρ)

/-- Both idealized programs end with the transform of the framed signal and the two matrices; from memories that agree on
    the arguments these are one array. -/
theorem algebraic : Cert.algebraic_KernelIdeal_ReferenceIdeal := by
  intro m ρ m' ρ' _ hagree
  refine ⟨fun c => Cert.Stft.spectrum
      (Cert.KernelIdeal.Stft.frames (F := Ideal) (m ((c.tc : Thread Cert.KernelIdeal.nD Cert.KernelIdeal.τ).loc Cert.KernelIdeal.main_arg0)))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Stft.run m ρ, ?_⟩
  refine (θ_run Cert.ReferenceIdeal.defs _ _).mono (fun _ h c => ⟨(h c).1.trans ?_, (h c).2⟩)
    (Cert.ReferenceIdeal.Stft.run m' ρ')
  rw [(hagree c).1, (hagree c).2.1, (hagree c).2.2, frames_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
